-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) (main_arg3 : IVec S16x2048x2048 1) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S16x2048x2048 : Shape := ⟨3, ![16, 2048, 2048]⟩
abbrev S1x512x128 : Shape := ⟨3, ![1, 512, 128]⟩
abbrev S1x512x512 : Shape := ⟨3, ![1, 512, 512]⟩
abbrev S512x128 : Shape := ⟨2, ![512, 128]⟩
abbrev S512x1 : Shape := ⟨2, ![512, 1]⟩
abbrev S512x512 : Shape := ⟨2, ![512, 512]⟩
abbrev S128x512 : Shape := ⟨2, ![128, 512]⟩
abbrev S512 : Shape := ⟨1, ![512]⟩

abbrev nBuf : Space → Nat
  | .hbm => 6
  | .vmem => 13
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .i32⟩
  | .hbm, ⟨5, _⟩ => ⟨S16x2048x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x512, .i32⟩
  | .local _ .vmem, ⟨7, _⟩ => ⟨S1x512x512, .i32⟩
  | .local _ .vmem, ⟨8, _⟩ => ⟨S1x512x128, .f32⟩
  | .local _ .vmem, ⟨9, _⟩ => ⟨S1x512x128, .f32⟩
  | .local _ .vmem, ⟨10, _⟩ => ⟨S512x128, .f32⟩
  | .local _ .vmem, ⟨11, _⟩ => ⟨S512x1, .f32⟩
  | .local _ .vmem, ⟨12, _⟩ => ⟨S512x1, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v50 : BitVec 1 := Scalar.cmpi .eq arg2 c3_i32
  let v51 : BitVec 32 := Scalar.extui v50
  let c0_i32_30 : BitVec 32 := 0#32
  let v52 : BitVec 1 := Scalar.cmpi .ne v51 c0_i32_30
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  natLt_1_32 : 1 < 32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x128_p1_0_S128x512 : S512x128.Transposes [1, 0] S128x512
  reduces_S512x512_S512 : S512x512.Reduces [1] S512
  shapeCasts_S512_S512x1 : S512.ShapeCasts S512x1
  broadcasts_S512x1_S512x512 : S512x1.Broadcasts S512x512
  broadcasts_S512x1_S512x128 : S512x1.Broadcasts S512x128
  shapeCasts_S512x128_S1x512x128 : S512x128.ShapeCasts S1x512x128
  dot_S512x128_S128x512_S512x512_1_0_0_1_n_n_wf : DotDims.WF S512x128 S128x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .f32 = 32 ∨ (Rect.block (s := S16x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S16x2048x128.size a
  hwx0_1 : ∀ i : grid0.Coords, EltTy.bits .f32 = 32 ∨ (Rect.block (s := S16x2048x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S16x2048x128.size a
  hwx0_2 : ∀ i : grid0.Coords, EltTy.bits .f32 = 32 ∨ (Rect.block (s := S16x2048x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S16x2048x2048.size a
  hwx0_3 : ∀ i : grid0.Coords, EltTy.bits .i32 = 32 ∨ (Rect.block (s := S16x2048x2048) S1x512x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S16x2048x128.size a
  hwx0_4 : ∀ i : grid0.Coords, EltTy.bits .f32 = 32 ∨ (Rect.block (s := S16x2048x128) S1x512x128.size (cc0_transform_4 i) (hinb0_4 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S16x2048x2048, .f32⟩
  | .hbm, ⟨25, _⟩ => ⟨S16x2048x2048, .f32⟩
  | .hbm, ⟨26, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.KPieces.lean ====
/-
  What one grid point leaves behind, case by case.

  A grid point of the attention kernel updates three buffers carried across the key chunks of one query block: the
  running numerator (512 x 128), the running maximum (512 x 1) and the running denominator (512 x 1).  At the first key
  chunk (case A) they are first reset to 0, -inf and 0; at the last (case C) the output block is the quotient of the
  updated numerator by the updated denominator.  Each lemma says which pure function of the point's input blocks and of
  the buffers' previous contents a case leaves in a buffer.
-/
import proofs.«400571_j74010876444950_3_alg».proof.Proof.Gen.KernelIdeal.Frame
import Idealize.ShloMosaic.Lib.Pipeline.Value
import Idealize.ShloMosaic.Lib.Tactic

set_option maxRecDepth 16384

noncomputable section

namespace Cert.KernelIdeal.KV

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg3 : Memref sig .tc .vmem S1x512x128 .f32) (harg3 : arg3.IsWhole) (arg4 : Memref sig .tc .vmem S1x512x128 .f32) (harg4 : arg4.IsWhole)
  (arg5 : Memref sig .tc .vmem S1x512x128 .f32) (harg5 : arg5.IsWhole) (arg6 : Memref sig .tc .vmem S1x512x512 .i32) (harg6 : arg6.IsWhole)
  (arg7 : Memref sig .tc .vmem S1x512x128 .f32) (harg7 : arg7.IsWhole) (arg8 : Memref sig .tc .vmem S512x128 .f32) (harg8 : arg8.IsWhole)
  (arg9 : Memref sig .tc .vmem S512x1 .f32) (harg9 : arg9.IsWhole) (arg10 : Memref sig .tc .vmem S512x1 .f32) (harg10 : arg10.IsWhole)
  (x0 x1 x2 : Vec F S1x512x128 .f32) (x3 : Vec F S1x512x512 .i32) (xs0 : Vec F S512x128 .f32) (xs1 xs2 : Vec F S512x1 .f32)

/-! ## A middle key chunk (case B): the three buffers updated from their previous contents -/

/-- The numerator after the update. -/
theorem accB (hc0 : ¬cond0_0 i) (hc1 : ¬cond0_1 i) :
    sout0_B_0 c i arg3 harg3 arg4 harg4 arg5 harg5 arg6 harg6 arg7 harg7 arg8 harg8 arg9 harg9 arg10 harg10 hc0 hc1 x0 x1 x2 x3 xs0 xs1 xs2
      = k0_pay2 (k0_pay8 x2) (k0_pay11 x0 x1 x3 xs1) (k0_pay12 x0 x1 x3 xs1) xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S512x128) hz2, View.ld_unit_zero (S := S512x1) hz2, View.ld_unit_zero (S := S1x512x128) hz3, View.ld_unit_zero (S := S1x512x512) hz3, View.readCov_unit_zero (S := S512x128) _ hz2, View.readCov_unit_zero (S := S512x1) _ hz2]

/-- The maximum after the update. -/
theorem maxB (hc0 : ¬cond0_0 i) (hc1 : ¬cond0_1 i) :
    sout0_B_1 c i arg3 harg3 arg4 harg4 arg5 harg5 arg6 harg6 arg7 harg7 arg8 harg8 arg9 harg9 arg10 harg10 hc0 hc1 x0 x1 x2 x3 xs0 xs1 xs2
      = k0_pay3 (k0_pay10 x0 x1 x3 xs1) := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S512x128) hz2, View.ld_unit_zero (S := S512x1) hz2, View.ld_unit_zero (S := S1x512x128) hz3, View.ld_unit_zero (S := S1x512x512) hz3, View.readCov_unit_zero (S := S512x128) _ hz2, View.readCov_unit_zero (S := S512x1) _ hz2]

/-- The denominator after the update. -/
theorem denB (hc0 : ¬cond0_0 i) (hc1 : ¬cond0_1 i) :
    sout0_B_2 c i arg3 harg3 arg4 harg4 arg5 harg5 arg6 harg6 arg7 harg7 arg8 harg8 arg9 harg9 arg10 harg10 hc0 hc1 x0 x1 x2 x3 xs0 xs1 xs2
      = k0_pay1 (k0_pay12 x0 x1 x3 xs1) (k0_pay13 x0 x1 x3 xs1 xs2) := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S512x128) hz2, View.ld_unit_zero (S := S512x1) hz2, View.ld_unit_zero (S := S1x512x128) hz3, View.ld_unit_zero (S := S1x512x512) hz3, View.readCov_unit_zero (S := S512x128) _ hz2, View.readCov_unit_zero (S := S512x1) _ hz2]

/-! ## The last key chunk (case C): the same update, and the output block -/

/-- The numerator after the update. -/
theorem accC (hc0 : ¬cond0_0 i) (hc1 : cond0_1 i) :
    sout0_C_0 c i arg3 harg3 arg4 harg4 arg5 harg5 arg6 harg6 arg7 harg7 arg8 harg8 arg9 harg9 arg10 harg10 hc0 hc1 x0 x1 x2 x3 xs0 xs1 xs2
      = k0_pay2 (k0_pay8 x2) (k0_pay11 x0 x1 x3 xs1) (k0_pay12 x0 x1 x3 xs1) xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S512x128) hz2, View.ld_unit_zero (S := S512x1) hz2, View.ld_unit_zero (S := S1x512x128) hz3, View.ld_unit_zero (S := S1x512x512) hz3, View.readCov_unit_zero (S := S512x128) _ hz2, View.readCov_unit_zero (S := S512x1) _ hz2]

/-- The maximum after the update. -/
theorem maxC (hc0 : ¬cond0_0 i) (hc1 : cond0_1 i) :
    sout0_C_1 c i arg3 harg3 arg4 harg4 arg5 harg5 arg6 harg6 arg7 harg7 arg8 harg8 arg9 harg9 arg10 harg10 hc0 hc1 x0 x1 x2 x3 xs0 xs1 xs2
      = k0_pay3 (k0_pay10 x0 x1 x3 xs1) := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S512x128) hz2, View.ld_unit_zero (S := S512x1) hz2, View.ld_unit_zero (S := S1x512x128) hz3, View.ld_unit_zero (S := S1x512x512) hz3, View.readCov_unit_zero (S := S512x128) _ hz2, View.readCov_unit_zero (S := S512x1) _ hz2]

/-- The denominator after the update. -/
theorem denC (hc0 : ¬cond0_0 i) (hc1 : cond0_1 i) :
    sout0_C_2 c i arg3 harg3 arg4 harg4 arg5 harg5 arg6 harg6 arg7 harg7 arg8 harg8 arg9 harg9 arg10 harg10 hc0 hc1 x0 x1 x2 x3 xs0 xs1 xs2
      = k0_pay1 (k0_pay12 x0 x1 x3 xs1) (k0_pay13 x0 x1 x3 xs1 xs2) := by
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S512x128) hz2, View.ld_unit_zero (S := S512x1) hz2, View.ld_unit_zero (S := S1x512x128) hz3, View.ld_unit_zero (S := S1x512x512) hz3, View.readCov_unit_zero (S := S512x128) _ hz2, View.readCov_unit_zero (S := S512x1) _ hz2]

/-- The output block: the updated numerator over the updated denominator. -/
theorem outC (hc0 : ¬cond0_0 i) (hc1 : cond0_1 i) :
    out0_C_4 c i arg3 harg3 arg4 harg4 arg5 harg5 arg6 harg6 arg7 harg7 arg8 harg8 arg9 harg9 arg10 harg10 hc0 hc1 x0 x1 x2 x3 xs0 xs1 xs2
      = k0_pay4 (k0_pay2 (k0_pay8 x2) (k0_pay11 x0 x1 x3 xs1) (k0_pay12 x0 x1 x3 xs1) xs0) (k0_pay1 (k0_pay12 x0 x1 x3 xs1) (k0_pay13 x0 x1 x3 xs1 xs2)) := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, View.ld_unit_zero (S := S512x128) hz2, View.ld_unit_zero (S := S512x1) hz2, View.ld_unit_zero (S := S1x512x128) hz3, View.ld_unit_zero (S := S1x512x512) hz3, View.readCov_unit_zero (S := S512x128) _ hz2, View.readCov_unit_zero (S := S512x1) _ hz2]

/-! ## The first key chunk (case A): reset, then the update from the reset values -/

/-- The numerator after the reset and the update. -/
theorem accA (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3
      = k0_pay2 (k0_pay8 x2) (k0_pay11 x0 x1 x3 (k0_pay6 (F := F))) (k0_pay12 x0 x1 x3 (k0_pay6 (F := F))) (k0_pay5 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x128) hz2]
  simp only [View.readAt_eq_ld, harg3.read_unread, harg4.read_unread, harg5.read_unread, harg6.read_unread, harg7.read_unread, harg8.read_unread, harg9.read_unread, harg10.read_unread, View.ld_unit_zero (S := S512x128) hz2, View.ld_unit_zero (S := S512x1) hz2, View.ld_unit_zero (S := S1x512x128) hz3, View.ld_unit_zero (S := S1x512x512) hz3, View.readCov_unit_zero (S := S512x128) _ hz2, View.readCov_unit_zero (S := S512x1) _ hz2]

/-- The maximum after the reset and the update. -/
theorem maxA (hc0 : cond0_0 i) (hc1 : ¬cond0_1 i) :
    sout0_A_1 c i arg3 harg3 arg4 harg4 arg5 harg5 arg6 harg6 arg7 harg7 arg8 harg8 arg9 harg9 arg10 harg10 hc0 hc1 x0 x1 x2 x3
      = k0_pay3 (k0_pay10 x0 x1 x3 (k0_pay6 (F := F))) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz2]
  simp only [View.readAt_eq_ld, harg3.read_unread, harg4.read_unread, harg5.read_unread, harg6.read_unread, harg7.read_unread, harg8.read_unread, harg9.read_unread, harg10.read_unread, View.ld_unit_zero (S := S512x128) hz2, View.ld_unit_zero (S := S512x1) hz2, View.ld_unit_zero (S := S1x512x128) hz3, View.ld_unit_zero (S := S1x512x512) hz3, View.readCov_unit_zero (S := S512x128) _ hz2, View.readCov_unit_zero (S := S512x1) _ hz2]

/-- The denominator after the reset and the update. -/
theorem denA (hc0 : cond0_0 i) (hc1 : ¬cond0_1 i) :
    sout0_A_2 c i arg3 harg3 arg4 harg4 arg5 harg5 arg6 harg6 arg7 harg7 arg8 harg8 arg9 harg9 arg10 harg10 hc0 hc1 x0 x1 x2 x3
      = k0_pay1 (k0_pay12 x0 x1 x3 (k0_pay6 (F := F))) (k0_pay13 x0 x1 x3 (k0_pay6 (F := F)) (k0_pay7 (F := F))) := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) hz2]
  simp only [View.readAt_eq_ld, harg3.read_unread, harg4.read_unread, harg5.read_unread, harg6.read_unread, harg7.read_unread, harg8.read_unread, harg9.read_unread, harg10.read_unread, View.ld_unit_zero (S := S512x128) hz2, View.ld_unit_zero (S := S512x1) hz2, View.ld_unit_zero (S := S1x512x128) hz3, View.ld_unit_zero (S := S1x512x512) hz3, View.readCov_unit_zero (S := S512x128) _ hz2, View.readCov_unit_zero (S := S512x1) _ hz2]

end Cert.KernelIdeal.KV

end
-- ==== Proof.KPoints.lean ====
/-
  The three carried buffers, and the output block, after each grid point.

  Grid point number n handles batch n / 16, query block (n / 4) mod 4 and key chunk n mod 4.  After the point the
  numerator, maximum and denominator buffers hold the update of what the previous point left (of the reset values at
  key chunk 0) by the point's own q, k, v and mask blocks; at key chunk 3 the output block is their quotient.
-/
import proofs.«400571_j74010876444950_3_alg».proof.Proof.KPieces

set_option maxRecDepth 16384

noncomputable section

namespace Cert.KernelIdeal.KV

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The point's q block. -/
abbrev qblk (c : Dev nD) (t : Fin cfg0.N) : Vec F S1x512x128 .f32 := iblk m c 0 t
/-- The point's k block. -/
abbrev kblk (c : Dev nD) (t : Fin cfg0.N) : Vec F S1x512x128 .f32 := iblk m c 1 t
/-- The point's v block. -/
abbrev vblk (c : Dev nD) (t : Fin cfg0.N) : Vec F S1x512x128 .f32 := iblk m c 2 t
/-- The point's block of mask words. -/
abbrev mblk (c : Dev nD) (t : Fin cfg0.N) : Vec F S1x512x512 .i32 := iblk m c 3 t

/-- The numerator buffer after point `n`. -/
abbrev accAt (c : Dev nD) (n : ℕ) (h : n < cfg0.N) : Vec F S512x128 .f32 := (outsAt0 m c n h).2.1
/-- The maximum buffer after point `n`. -/
abbrev maxAt (c : Dev nD) (n : ℕ) (h : n < cfg0.N) : Vec F S512x1 .f32 := (outsAt0 m c n h).2.2.1
/-- The denominator buffer after point `n`. -/
abbrev denAt (c : Dev nD) (n : ℕ) (h : n < cfg0.N) : Vec F S512x1 .f32 := (outsAt0 m c n h).2.2.2
/-- The output's staging block after point `n`. -/
abbrev outAt (c : Dev nD) (n : ℕ) (h : n < cfg0.N) : Vec F S1x512x128 .f32 := (outsAt0 m c n h).1

/-- What the point before `t` left in the three buffers. -/
abbrev accPrev (c : Dev nD) (t : Fin cfg0.N) : Vec F S512x128 .f32 := accAt m c (t.val - 1) (Nat.lt_of_le_of_lt (Nat.sub_le _ _) t.isLt)
abbrev maxPrev (c : Dev nD) (t : Fin cfg0.N) : Vec F S512x1 .f32 := maxAt m c (t.val - 1) (Nat.lt_of_le_of_lt (Nat.sub_le _ _) t.isLt)
abbrev denPrev (c : Dev nD) (t : Fin cfg0.N) : Vec F S512x1 .f32 := denAt m c (t.val - 1) (Nat.lt_of_le_of_lt (Nat.sub_le _ _) t.isLt)

/-- Key chunk 0: the buffers hold the update of the reset values. -/
theorem point_A (c : Dev nD) (t : Fin cfg0.N) (h0 : t.val % 4 = 0) :
    accAt m c t.val t.isLt = k0_pay2 (k0_pay8 (vblk m c t)) (k0_pay11 (qblk m c t) (kblk m c t) (mblk m c t) (k0_pay6 (F := F))) (k0_pay12 (qblk m c t) (kblk m c t) (mblk m c t) (k0_pay6 (F := F))) (k0_pay5 (F := F))
    ∧ maxAt m c t.val t.isLt = k0_pay3 (k0_pay10 (qblk m c t) (kblk m c t) (mblk m c t) (k0_pay6 (F := F)))
    ∧ denAt m c t.val t.isLt = k0_pay1 (k0_pay12 (qblk m c t) (kblk m c t) (mblk m c t) (k0_pay6 (F := F))) (k0_pay13 (qblk m c t) (kblk m c t) (mblk m c t) (k0_pay6 (F := F)) (k0_pay7 (F := F))) := by
  have h1 : ¬t.val % 4 = 3 := by omega
  show (outsAt0 m c t.val t.isLt).2.1 = _ ∧ (outsAt0 m c t.val t.isLt).2.2.1 = _ ∧ (outsAt0 m c t.val t.isLt).2.2.2 = _
  rw [outsAt0_A m c t h0 h1]
  dsimp only
  exact ⟨accA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h)),
    maxA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h)),
    denA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))⟩

/-- Key chunks 1 and 2: the buffers hold the update of what the point before left. -/
theorem point_B (c : Dev nD) (t : Fin cfg0.N) (h0 : ¬t.val % 4 = 0) (h1 : ¬t.val % 4 = 3) :
    accAt m c t.val t.isLt = k0_pay2 (k0_pay8 (vblk m c t)) (k0_pay11 (qblk m c t) (kblk m c t) (mblk m c t) (maxPrev m c t)) (k0_pay12 (qblk m c t) (kblk m c t) (mblk m c t) (maxPrev m c t)) (accPrev m c t)
    ∧ maxAt m c t.val t.isLt = k0_pay3 (k0_pay10 (qblk m c t) (kblk m c t) (mblk m c t) (maxPrev m c t))
    ∧ denAt m c t.val t.isLt = k0_pay1 (k0_pay12 (qblk m c t) (kblk m c t) (mblk m c t) (maxPrev m c t)) (k0_pay13 (qblk m c t) (kblk m c t) (mblk m c t) (maxPrev m c t) (denPrev m c t)) := by
  show (outsAt0 m c t.val t.isLt).2.1 = _ ∧ (outsAt0 m c t.val t.isLt).2.2.1 = _ ∧ (outsAt0 m c t.val t.isLt).2.2.2 = _
  rw [outsAt0_B m c t h0 h1]
  dsimp only
  exact ⟨accB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
    maxB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
    denB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))⟩

/-- Key chunk 3: the same update, and the output block is the updated numerator over the updated denominator. -/
theorem point_C (c : Dev nD) (t : Fin cfg0.N) (h1 : t.val % 4 = 3) :
    accAt m c t.val t.isLt = k0_pay2 (k0_pay8 (vblk m c t)) (k0_pay11 (qblk m c t) (kblk m c t) (mblk m c t) (maxPrev m c t)) (k0_pay12 (qblk m c t) (kblk m c t) (mblk m c t) (maxPrev m c t)) (accPrev m c t)
    ∧ maxAt m c t.val t.isLt = k0_pay3 (k0_pay10 (qblk m c t) (kblk m c t) (mblk m c t) (maxPrev m c t))
    ∧ denAt m c t.val t.isLt = k0_pay1 (k0_pay12 (qblk m c t) (kblk m c t) (mblk m c t) (maxPrev m c t)) (k0_pay13 (qblk m c t) (kblk m c t) (mblk m c t) (maxPrev m c t) (denPrev m c t))
    ∧ outAt m c t.val t.isLt = k0_pay4 (k0_pay2 (k0_pay8 (vblk m c t)) (k0_pay11 (qblk m c t) (kblk m c t) (mblk m c t) (maxPrev m c t)) (k0_pay12 (qblk m c t) (kblk m c t) (mblk m c t) (maxPrev m c t)) (accPrev m c t)) (k0_pay1 (k0_pay12 (qblk m c t) (kblk m c t) (mblk m c t) (maxPrev m c t)) (k0_pay13 (qblk m c t) (kblk m c t) (mblk m c t) (maxPrev m c t) (denPrev m c t))) := by
  have h0 : ¬t.val % 4 = 0 := by omega
  show (outsAt0 m c t.val t.isLt).2.1 = _ ∧ (outsAt0 m c t.val t.isLt).2.2.1 = _ ∧ (outsAt0 m c t.val t.isLt).2.2.2 = _ ∧ (outsAt0 m c t.val t.isLt).1 = _
  rw [outsAt0_C m c t h0 h1]
  dsimp only
  exact ⟨accC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    maxC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    denC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    outC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)⟩

end Cert.KernelIdeal.KV

end
-- ==== Proof.Spec.lean ====
/-
  Scaled dot-product attention with a boolean mask, as a function of the argument arrays on the extended reals.

  For batch b, query row r and key j the score is  s(b,r,j) = (sum over d of q[b,r,d] * k[b,j,d]) * c  with c the
  binary value of the scale constant, replaced by the finite fill value where the mask holds.  A row's weights are
  the softmax of its 2048 scores, exp(s_j - M) / (sum over j' of exp(s_j' - M)) with M the row's maximum, and the
  result at (b,r,d) is the weighted sum of v[b,j,d] over j.

  The same value is reached by the online recurrence that visits the keys in four consecutive chunks of 512: a state
  (m, l, a) of running maximum, running denominator and running numerator starts at (-inf, 0, 0) and a chunk with
  scores sc and values w turns it into
      m' = max m (max of sc),   l' = exp(m - m') * l + sum of exp(sc_j - m'),   a' = exp(m - m') * a + sum of exp(sc_j - m') * w_j ,
  and the result is a / l after the last chunk.
-/
import Idealize.ShloMosaic.Lib.ValueIdx
import Idealize.ShloMosaic.PureOps.Ideal.Laws

noncomputable section

namespace Attn

open Idealize.ShloMosaic Idealize.ShloMosaic.ValueIdx

/-- The shape of q, k, v and of the result. -/
abbrev SQ : Shape := ⟨3, ![16, 2048, 128]⟩
/-- The shape of the mask and of the scores. -/
abbrev SM : Shape := ⟨3, ![16, 2048, 2048]⟩

/-- The fill value of a masked score: the most negative finite f32. -/
def negBig : EReal := Ideal.ofBits .f32 0xFF7FFFFF#32
/-- The scale: the f32 nearest 1/sqrt 128, at its binary value. -/
def scale : EReal := Ideal.ofBits .f32 0x3DB504F3#32

/-- The masked, scaled score of query row `r` against key `j` in batch `b`. -/
def score (q k : SQ.Idx → EReal) (mask : SM.Idx → BitVec 1) (b : Fin 16) (r j : Fin 2048) : EReal :=
  Scalar.select (mask (ix3 b r j)) negBig ((∑ d : Fin 128, q (ix3 b r d) * k (ix3 b j d)) * scale)

/-- A row's maximum, from -inf. -/
def rowMax (s : Fin 2048 → EReal) : EReal := (Finset.univ : Finset (Fin 2048)).fold max ⊥ s

/-- The softmax of the scores `s` applied to the values `w`. -/
def attnRow (s w : Fin 2048 → EReal) : EReal :=
  ∑ j : Fin 2048, Ideal.div (Ideal.exp (s j - rowMax s)) (∑ j' : Fin 2048, Ideal.exp (s j' - rowMax s)) * w j

/-- The attention output at batch `b`, row `r`, feature `d`. -/
def Gat (q k v : SQ.Idx → EReal) (mask : SM.Idx → BitVec 1) (b : Fin 16) (r : Fin 2048) (d : Fin 128) : EReal :=
  attnRow (score q k mask b r) (fun j => v (ix3 b j d))

/-- The attention output as an array. -/
def G (q k v : SQ.Idx → EReal) (mask : SM.Idx → BitVec 1) : SQ.Idx → EReal :=
  fun i => Gat q k v mask (i 0) (i 1) (i 2)

theorem G_ix3 (q k v : SQ.Idx → EReal) (mask : SM.Idx → BitVec 1) (b : Fin 16) (r : Fin 2048) (d : Fin 128) :
    G q k v mask (ix3 b r d) = Gat q k v mask b r d := rfl

/-! ## The online recurrence -/

/-- One chunk of the online recurrence on a state (m, l, a). -/
def step {κ : Type} [Fintype κ] (st : EReal × EReal × EReal) (sc w : κ → EReal) : EReal × EReal × EReal :=
  (max st.1 ((Finset.univ : Finset κ).fold max ⊥ sc),
   Ideal.exp (st.1 - max st.1 ((Finset.univ : Finset κ).fold max ⊥ sc)) * st.2.1
     + ∑ j : κ, Ideal.exp (sc j - max st.1 ((Finset.univ : Finset κ).fold max ⊥ sc)),
   Ideal.exp (st.1 - max st.1 ((Finset.univ : Finset κ).fold max ⊥ sc)) * st.2.2
     + ∑ j : κ, Ideal.exp (sc j - max st.1 ((Finset.univ : Finset κ).fold max ⊥ sc)) * w j)

/-- The state before any key. -/
def st0 : EReal × EReal × EReal := (⊥, 0, 0)

/-- Key `x` of chunk `n`. -/
def key (n : Fin 4) (x : Fin 512) : Fin 2048 := ⟨x.val + 512 * n.val, by omega⟩

/-- The state after the first `n` chunks (all four for n ≥ 4). -/
def stN (s w : Fin 2048 → EReal) : ℕ → EReal × EReal × EReal
  | 0 => st0
  | 1 => step st0 (fun x => s (key 0 x)) (fun x => w (key 0 x))
  | 2 => step (stN s w 1) (fun x => s (key 1 x)) (fun x => w (key 1 x))
  | 3 => step (stN s w 2) (fun x => s (key 2 x)) (fun x => w (key 2 x))
  | _ + 4 => step (stN s w 3) (fun x => s (key 3 x)) (fun x => w (key 3 x))

/-- The state after all four chunks. -/
def st4 (s w : Fin 2048 → EReal) : EReal × EReal × EReal := stN s w 4

end Attn

end
-- ==== Proof.KBlocks.lean ====
/-
  Where a grid point's blocks sit in the arrays.

  Grid point number n has batch n / 16, query block (n / 4) mod 4 and key chunk n mod 4.  Its q block is rows
  512 * ((n / 4) mod 4) + 0 .. 511 of batch n / 16, its k and v blocks are keys 512 * (n mod 4) + 0 .. 511 of that batch,
  its mask block those rows against those keys, and its output block the same rows as the q block.
-/
import proofs.«400571_j74010876444950_3_alg».proof.Proof.KPoints
import proofs.«400571_j74010876444950_3_alg».proof.Proof.Spec
import Idealize.ShloMosaic.Lib.ValueIdx

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The windows' block indices at every grid point, by enumeration of the 256 points. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val % 4 ∧ win0_2.index t (2 : Fin 3) = 0
    ∧ win0_3.index t (0 : Fin 3) = t.val / 16 ∧ win0_3.index t (1 : Fin 3) = t.val / 4 % 4 ∧ win0_3.index t (2 : Fin 3) = t.val % 4
    ∧ win0_4.index t (0 : Fin 3) = t.val / 16 ∧ win0_4.index t (1 : Fin 3) = t.val / 4 % 4 ∧ win0_4.index t (2 : Fin 3) = 0 :=
  (by decide +kernel : ∀ t : Fin grid0.N, _)

theorem N_eq : cfg0.N = 256 := N_0

/-- The batch of a grid point. -/
def bOf (t : Fin cfg0.N) : Fin 16 := ⟨t.val / 16, by have := t.isLt; have := N_eq; omega⟩
/-- Row `rr` of a grid point's query block, as a row of the array. -/
def rowOf (t : Fin cfg0.N) (rr : Fin 512) : Fin 2048 := ⟨512 * (t.val / 4 % 4) + rr.val, by have := rr.isLt; omega⟩
/-- The key chunk of a grid point. -/
def kvOf (t : Fin cfg0.N) : Fin 4 := ⟨t.val % 4, Nat.mod_lt _ (by decide)⟩

/-- The q block at (row, feature). -/
theorem qblk_apply (c : Dev nD) (t : Fin cfg0.N) (rr : Fin 512) (d : Fin 128) :
    qblk m c t (ix3 (0 : Fin 1) rr d) = (V m c main_arg0 : Vec F S16x2048x128 .f32) (ix3 (bOf t) (rowOf t rr) d) := by
  obtain ⟨e0, e1, e2, -⟩ := idx_facts t
  show ((cfg0.win 0).blk t).view.read (Elt F) (V m c (Pipeline.arrRef spec0 0)) (ix3 (0 : Fin 1) rr d) = _
  rw [View.read_apply]
  show V m c main_arg0 _ = V m c main_arg0 _
  congr 1
  funext a; apply Fin.ext
  match a with
  | ⟨0, _⟩ => show win0_0.index t (0 : Fin 3) * 1 + 1 * 0 = t.val / 16; omega
  | ⟨1, _⟩ => show win0_0.index t (1 : Fin 3) * 512 + 1 * rr.val = 512 * (t.val / 4 % 4) + rr.val; omega
  | ⟨2, _⟩ => show win0_0.index t (2 : Fin 3) * 128 + 1 * d.val = d.val; omega

/-- The k block at (key, feature). -/
theorem kblk_apply (c : Dev nD) (t : Fin cfg0.N) (jj : Fin 512) (d : Fin 128) :
    kblk m c t (ix3 (0 : Fin 1) jj d) = (V m c main_arg1 : Vec F S16x2048x128 .f32) (ix3 (bOf t) (Attn.key (kvOf t) jj) d) := by
  obtain ⟨-, -, -, e0, e1, e2, -⟩ := idx_facts t
  show ((cfg0.win 1).blk t).view.read (Elt F) (V m c (Pipeline.arrRef spec0 1)) (ix3 (0 : Fin 1) jj d) = _
  rw [View.read_apply]
  show V m c main_arg1 _ = V m c main_arg1 _
  congr 1
  funext a; apply Fin.ext
  match a with
  | ⟨0, _⟩ => show win0_1.index t (0 : Fin 3) * 1 + 1 * 0 = t.val / 16; omega
  | ⟨1, _⟩ => show win0_1.index t (1 : Fin 3) * 512 + 1 * jj.val = jj.val + 512 * (t.val % 4); omega
  | ⟨2, _⟩ => show win0_1.index t (2 : Fin 3) * 128 + 1 * d.val = d.val; omega

/-- The v block at (key, feature). -/
theorem vblk_apply (c : Dev nD) (t : Fin cfg0.N) (jj : Fin 512) (d : Fin 128) :
    vblk m c t (ix3 (0 : Fin 1) jj d) = (V m c main_arg2 : Vec F S16x2048x128 .f32) (ix3 (bOf t) (Attn.key (kvOf t) jj) d) := by
  obtain ⟨-, -, -, -, -, -, e0, e1, e2, -⟩ := idx_facts t
  show ((cfg0.win 2).blk t).view.read (Elt F) (V m c (Pipeline.arrRef spec0 2)) (ix3 (0 : Fin 1) jj d) = _
  rw [View.read_apply]
  show V m c main_arg2 _ = V m c main_arg2 _
  congr 1
  funext a; apply Fin.ext
  match a with
  | ⟨0, _⟩ => show win0_2.index t (0 : Fin 3) * 1 + 1 * 0 = t.val / 16; omega
  | ⟨1, _⟩ => show win0_2.index t (1 : Fin 3) * 512 + 1 * jj.val = jj.val + 512 * (t.val % 4); omega
  | ⟨2, _⟩ => show win0_2.index t (2 : Fin 3) * 128 + 1 * d.val = d.val; omega

/-- The block of mask words at (row, key). -/
theorem mblk_apply (c : Dev nD) (t : Fin cfg0.N) (rr jj : Fin 512) :
    mblk m c t (ix3 (0 : Fin 1) rr jj) = (V m c main_v0 : Vec F S16x2048x2048 .i32) (ix3 (bOf t) (rowOf t rr) (Attn.key (kvOf t) jj)) := by
  obtain ⟨-, -, -, -, -, -, -, -, -, e0, e1, e2, -⟩ := idx_facts t
  show ((cfg0.win 3).blk t).view.read (Elt F) (V m c (Pipeline.arrRef spec0 3)) (ix3 (0 : Fin 1) rr jj) = _
  rw [View.read_apply]
  show V m c main_v0 _ = V m c main_v0 _
  congr 1
  funext a; apply Fin.ext
  match a with
  | ⟨0, _⟩ => show win0_3.index t (0 : Fin 3) * 1 + 1 * 0 = t.val / 16; omega
  | ⟨1, _⟩ => show win0_3.index t (1 : Fin 3) * 512 + 1 * rr.val = 512 * (t.val / 4 % 4) + rr.val; omega
  | ⟨2, _⟩ => show win0_3.index t (2 : Fin 3) * 512 + 1 * jj.val = jj.val + 512 * (t.val % 4); omega

/-- The mask words are the mask bits widened. -/
theorem maskWords (c : Dev nD) :
    (V m c main_v0 : Vec F S16x2048x2048 .i32) = extui 32 (m ((c : Thread nD τ).loc main_arg3)) natLt_1_32 := by
  dsimp only [V, hostOps0]
  after_results

end Cert.KernelIdeal.KV

end
-- ==== Proof.KDefs.lean ====
/-
  The scores as the kernel computes them.

  The kernel multiplies q by the scale BEFORE the product with k, and reads the mask as a 32-bit word compared against
  zero.  One grid point sees a block of 512 query rows and a block of 512 keys; `bsc` is that block's score at a row
  and a key, `ksc` the same expression over the whole arrays.
-/
import proofs.«400571_j74010876444950_3_alg».proof.KernelIdeal
import proofs.«400571_j74010876444950_3_alg».proof.Proof.Spec

noncomputable section

namespace Cert.KernelIdeal.KV

open Idealize.ShloMosaic Idealize.ShloMosaic.ValueIdx Cert.KernelIdeal

/-- The score of row `rr` against key `jj` inside one grid point's blocks. -/
def bsc (x0 x1 : Vec Ideal S1x512x128 .f32) (x3 : Vec Ideal S1x512x512 .i32) (rr jj : Fin 512) : EReal :=
  Scalar.select (Scalar.cmpi .ne (x3 (ix3 (0 : Fin 1) rr jj)) 0#32) Attn.negBig
    (∑ d : Fin 128, (x0 (ix3 (0 : Fin 1) rr d) * Attn.scale) * x1 (ix3 (0 : Fin 1) jj d))

/-- The score of row `r` against key `j` in batch `b`, over the whole arrays, the mask widened to words. -/
def ksc (q k : Attn.SQ.Idx → EReal) (mw : Attn.SM.Idx → BitVec 32) (b : Fin 16) (r j : Fin 2048) : EReal :=
  Scalar.select (Scalar.cmpi .ne (mw (ix3 b r j)) 0#32) Attn.negBig
    (∑ d : Fin 128, (q (ix3 b r d) * Attn.scale) * k (ix3 b j d))

/-- The state a row starts from, as three arrays' entries: running maximum -inf, denominator 0, numerator 0. -/
def init0 : EReal × EReal × EReal := Attn.st0

end Cert.KernelIdeal.KV

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.KStepVal.lean ====
/-
  The kernel body's arithmetic, read at an index, on the extended reals.

  One grid point holds a block of 512 query rows and a block of 512 keys.  Its score matrix is the product of the scaled
  query block with the transposed key block, the fill value where the mask word is not zero.  For a row, the point turns the
  stored (maximum m, denominator l, numerator a) into
      m' = max m (the row's largest score),   l' = exp (m - m') * l + sum over the keys of exp (score - m'),
      a' = exp (m - m') * a + sum over the keys of exp (score - m') * value ,
  which is one step of the online recurrence; the last point of a row block divides a by l, and the first starts from
  (-inf, 0, 0).  Each vector the body computes is read here at one index: the shape casts and broadcasts name the operand's
  index, the two matrix products are sums over the shared axis, the row maximum a fold of max and the row sum a sum over the
  row's 512 columns.
-/
import proofs.«400571_j74010876444950_3_alg».proof.Proof.Gen.KernelIdeal.Skeleton
import proofs.«400571_j74010876444950_3_alg».proof.Proof.KDefs
import proofs.«400571_j74010876444950_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Cert.KernelIdeal Cert.KernelIdeal.Gen Idealize.ShloMosaic Idealize.ShloMosaic.ValueIdx

variable {α : Type}

/-! ## Two layout operations on a column, read at an index -/

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a row reduction of the score matrix: row `r`, column `k`. -/
theorem lift_row (h : S512x512.Reduces [1] S512) (r k : Fin 512) : h.lift (ix1 r) k = ix2 r k := by
  funext c
  match c with
  | ⟨0, _⟩ => rfl
  | ⟨1, _⟩ => rfl

/-- The bit pattern of f32's negative infinity is the bottom element. -/
theorem ofBits_negInf : Ideal.ofBits .f32 0xFF800000#32 = (⊥ : EReal) := by simp [Ideal.ofBits, Ideal.ieee]

/-! ## The two matrix products are plain -/

theorem plain_qk : PlainDot.IsPlain dot_S512x128_S128x512_S512x512_1_0_0_1_n_n := ⟨rfl, rfl, rfl, rfl, rfl, rfl⟩
theorem plain_pv : PlainDot.IsPlain dot_S512x512_S512x128_S512x128_1_0_0_1_n_n := ⟨rfl, rfl, rfl, rfl, rfl, rfl⟩

/-! ## The payloads, one by one -/

/-- The block's masked, scaled scores. -/
theorem pay9_apply (x0 x1 : Vec Ideal S1x512x128 .f32) (x3 : Vec Ideal S1x512x512 .i32) (rr jj : Fin 512) :
    k0_pay9 (F := Ideal) x0 x1 x3 (ix2 rr jj) = bsc x0 x1 x3 rr jj := by
  unfold Gen.k0_pay9 bsc
  refine (select_apply _ _ _ _).trans ?_
  refine congr (congr (congrArg Scalar.select ?_) ?_) ?_
  · exact congrArg (fun w => IntOp.cmpi .ne w 0#32) (shapeCast_1ab_ab_apply x3 _ rr jj)
  · rfl
  · refine (PlainDot.matmul_zero_apply _ plain_qk none _ _ rr jj).trans ?_
    refine Finset.sum_congr rfl fun k _ => ?_
    refine congr (congrArg HMul.hMul ?_) ?_
    · exact congrArg (· * Attn.scale) (shapeCast_1ab_ab_apply x0 _ rr k)
    · exact (transpose_ix2_apply _ _ k jj).trans (shapeCast_1ab_ab_apply x1 _ jj k)

/-- The value block, with its unit axis dropped. -/
theorem pay8_apply (x2 : Vec Ideal S1x512x128 .f32) (jj : Fin 512) (d : Fin 128) :
    k0_pay8 (F := Ideal) x2 (ix2 jj d) = x2 (ix3 (0 : Fin 1) jj d) := by
  unfold Gen.k0_pay8
  exact shapeCast_1ab_ab_apply x2 _ jj d

/-- The new running maximum of a row: the old one against the row's largest score. -/
theorem pay10_apply (x0 x1 : Vec Ideal S1x512x128 .f32) (x3 : Vec Ideal S1x512x512 .i32) (xs1 : Vec Ideal S512x1 .f32)
    (rr : Fin 512) :
    k0_pay10 (F := Ideal) x0 x1 x3 xs1 (ix2 rr (0 : Fin 1))
      = max (xs1 (ix2 rr (0 : Fin 1))) ((Finset.univ : Finset (Fin 512)).fold max ⊥ (bsc x0 x1 x3 rr)) := by
  unfold Gen.k0_pay10
  refine (maximumf_apply _ _ _).trans ?_
  refine congrArg (max (xs1 (ix2 rr (0 : Fin 1)))) ?_
  refine (shapeCast_a_a1_apply _ _ rr 0).trans ?_
  refine (Ideal.multiReduction_maximumf_single (k0_pay9 (F := Ideal) x0 x1 x3) _ _ _ _ (ix1 rr)).trans ?_
  have hf : (k0_pay9 (F := Ideal) x0 x1 x3 ∘ Shape.Reduces.lift Gen.reduces_S512x512_S512 (ix1 rr)) = bsc x0 x1 x3 rr :=
    funext fun k => (congrArg (k0_pay9 (F := Ideal) x0 x1 x3) (lift_row _ rr k)).trans (pay9_apply x0 x1 x3 rr k)
  exact congrFun (congr (congrArg (Finset.fold max) ofBits_negInf) hf) Finset.univ

/-- The factor that rescales a row's old sums: the exponential of the old maximum less the new. -/
theorem pay11_apply (x0 x1 : Vec Ideal S1x512x128 .f32) (x3 : Vec Ideal S1x512x512 .i32) (xs1 : Vec Ideal S512x1 .f32)
    (i : S512x1.Idx) :
    k0_pay11 (F := Ideal) x0 x1 x3 xs1 i = Ideal.exp (xs1 i - k0_pay10 (F := Ideal) x0 x1 x3 xs1 i) := rfl

/-- A score's weight: the exponential of the score less the row's new maximum. -/
theorem pay12_apply (x0 x1 : Vec Ideal S1x512x128 .f32) (x3 : Vec Ideal S1x512x512 .i32) (xs1 : Vec Ideal S512x1 .f32)
    (rr jj : Fin 512) :
    k0_pay12 (F := Ideal) x0 x1 x3 xs1 (ix2 rr jj)
      = Ideal.exp (bsc x0 x1 x3 rr jj - k0_pay10 (F := Ideal) x0 x1 x3 xs1 (ix2 rr (0 : Fin 1))) := by
  unfold Gen.k0_pay12
  show Ideal.exp (k0_pay9 (F := Ideal) x0 x1 x3 (ix2 rr jj) - broadcastTo S512x512 (k0_pay10 (F := Ideal) x0 x1 x3 xs1) _ (ix2 rr jj)) = _
  exact congrArg₂ (fun a b => Ideal.exp (a - b)) (pay9_apply x0 x1 x3 rr jj) (broadcastTo_a1_ab_apply _ _ rr jj)

/-- The old denominator, rescaled. -/
theorem pay13_apply (x0 x1 : Vec Ideal S1x512x128 .f32) (x3 : Vec Ideal S1x512x512 .i32) (xs1 xs2 : Vec Ideal S512x1 .f32)
    (i : S512x1.Idx) :
    k0_pay13 (F := Ideal) x0 x1 x3 xs1 xs2 i = k0_pay11 (F := Ideal) x0 x1 x3 xs1 i * xs2 i := rfl

/-- The new denominator: the rescaled old one plus the row's weights. -/
theorem pay1_apply (v29 : FVec Ideal S512x512 .f32) (v31 : FVec Ideal S512x1 .f32) (rr : Fin 512) :
    k0_pay1 (F := Ideal) v29 v31 (ix2 rr (0 : Fin 1)) = v31 (ix2 rr (0 : Fin 1)) + ∑ k : Fin 512, v29 (ix2 rr k) := by
  unfold Gen.k0_pay1
  rw [shapeCast_self]
  refine (addf_apply _ _ _).trans ?_
  refine congrArg (v31 (ix2 rr (0 : Fin 1)) + ·) ?_
  refine (shapeCast_a_a1_apply _ _ rr 0).trans ?_
  refine (Ideal.multiReduction_add_single v29 _ _ _ _ (ix1 rr)).trans ?_
  exact Finset.sum_congr rfl fun k _ => congrArg v29 (lift_row _ rr k)

/-- The new numerator: the rescaled old one plus the weights applied to the values. -/
theorem pay2_apply (v13 : FVec Ideal S512x128 .bf16) (v26 : FVec Ideal S512x1 .f32) (v29 : FVec Ideal S512x512 .f32)
    (v38 : Vec Ideal S512x128 .f32) (rr : Fin 512) (d : Fin 128) :
    k0_pay2 (F := Ideal) v13 v26 v29 v38 (ix2 rr d)
      = v26 (ix2 rr (0 : Fin 1)) * v38 (ix2 rr d) + ∑ k : Fin 512, v29 (ix2 rr k) * v13 (ix2 k d) := by
  unfold Gen.k0_pay2
  rw [shapeCast_self]
  refine (addf_apply _ _ _).trans ?_
  refine congr (congrArg HAdd.hAdd ?_) ?_
  · exact congrArg (· * v38 (ix2 rr d)) (broadcastTo_a1_ab_apply v26 _ rr d)
  · exact PlainDot.matmul_zero_apply _ plain_pv none _ _ rr d

/-- The stored maximum is the new maximum. -/
theorem pay3_eq (v24 : FVec Ideal S512x1 .f32) : k0_pay3 (F := Ideal) v24 = v24 := by
  unfold Gen.k0_pay3
  exact shapeCast_self _ _

/-! ## One grid point, the last division, the first point's values -/

/-- one grid point's update of a row's (maximum, denominator, numerator) is one step of the online recurrence -/
theorem step_vals (x0 x1 x2 : Vec Ideal S1x512x128 .f32) (x3 : Vec Ideal S1x512x512 .i32)
    (xs0 : Vec Ideal S512x128 .f32) (xs1 xs2 : Vec Ideal S512x1 .f32) (rr : Fin 512) (d : Fin 128) :
    (k0_pay3 (F := Ideal) (k0_pay10 x0 x1 x3 xs1) (ix2 rr (0 : Fin 1)),
     k0_pay1 (F := Ideal) (k0_pay12 x0 x1 x3 xs1) (k0_pay13 x0 x1 x3 xs1 xs2) (ix2 rr (0 : Fin 1)),
     k0_pay2 (F := Ideal) (k0_pay8 x2) (k0_pay11 x0 x1 x3 xs1) (k0_pay12 x0 x1 x3 xs1) xs0 (ix2 rr d))
      = Attn.step (xs1 (ix2 rr (0 : Fin 1)), xs2 (ix2 rr (0 : Fin 1)), xs0 (ix2 rr d)) (bsc x0 x1 x3 rr) (fun jj : Fin 512 => x2 (ix3 (0 : Fin 1) jj d)) := by
  unfold Attn.step
  refine Prod.ext ?_ (Prod.ext ?_ ?_)
  · show k0_pay3 (F := Ideal) (k0_pay10 x0 x1 x3 xs1) (ix2 rr (0 : Fin 1)) = _
    rw [pay3_eq]
    exact pay10_apply x0 x1 x3 xs1 rr
  · show k0_pay1 (F := Ideal) (k0_pay12 x0 x1 x3 xs1) (k0_pay13 x0 x1 x3 xs1 xs2) (ix2 rr (0 : Fin 1)) = _
    refine (pay1_apply _ _ rr).trans ?_
    rw [pay13_apply, pay11_apply, ← pay10_apply x0 x1 x3 xs1 rr]
    exact congrArg (_ + ·) (Finset.sum_congr rfl fun k _ => pay12_apply x0 x1 x3 xs1 rr k)
  · show k0_pay2 (F := Ideal) (k0_pay8 x2) (k0_pay11 x0 x1 x3 xs1) (k0_pay12 x0 x1 x3 xs1) xs0 (ix2 rr d) = _
    refine (pay2_apply _ _ _ _ rr d).trans ?_
    rw [pay11_apply, ← pay10_apply x0 x1 x3 xs1 rr]
    exact congrArg (_ + ·) (Finset.sum_congr rfl fun k _ => by rw [pay12_apply, pay8_apply])

/-- the final division -/
theorem out_val (v53 : Vec Ideal S512x128 .f32) (v54 : Vec Ideal S512x1 .f32) (rr : Fin 512) (d : Fin 128) :
    k0_pay4 (F := Ideal) v53 v54 (ix3 (0 : Fin 1) rr d) = Ideal.div (v53 (ix2 rr d)) (v54 (ix2 rr (0 : Fin 1))) := by
  unfold Gen.k0_pay4
  refine (shapeCast_ab_1ab_apply _ _ 0 rr d).trans ?_
  refine (divf_apply _ _ _).trans ?_
  exact congrArg (Ideal.div (v53 (ix2 rr d))) (broadcastTo_a1_ab_apply v54 _ rr d)

/-- the values the first point of a row block starts from -/
theorem init_vals (rr : Fin 512) (d : Fin 128) :
    (k0_pay6 (F := Ideal) (ix2 rr (0 : Fin 1)), k0_pay7 (F := Ideal) (ix2 rr (0 : Fin 1)), k0_pay5 (F := Ideal) (ix2 rr d)) = Attn.st0 := by
  unfold Gen.k0_pay6 Gen.k0_pay7 Gen.k0_pay5 Attn.st0
  rw [shapeCast_self, shapeCast_self, shapeCast_self]
  exact Prod.ext ofBits_negInf (Prod.ext Ideal.ofBits_zero_f32 Ideal.ofBits_zero_f32)

end Cert.KernelIdeal.KV

end
-- ==== Proof.KInv.lean ====
/-
  The carried buffers hold the online recurrence's state.

  Fix a batch b, a query row r and a feature d.  The row's scores s_j (over all 2048 keys) and the column w_j = v[b, j, d]
  are visited by four consecutive grid points, key chunk 0 to 3.  After the point of key chunk kv the row's entries of the
  maximum, denominator and numerator buffers are the state of the online recurrence after kv + 1 chunks: at chunk 0 the
  point starts from the reset values (-inf, 0, 0), later it starts from what the point before left, which is the same
  row's state one chunk earlier.  By induction on the point number.
-/
import proofs.«400571_j74010876444950_3_alg».proof.Proof.KBlocks
import proofs.«400571_j74010876444950_3_alg».proof.Proof.KStepVal
import proofs.«400571_j74010876444950_3_alg».proof.Proof.KDefs

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The arrays as the kernel finds them. -/
abbrev qArr (c : Dev nD) : Attn.SQ.Idx → EReal := V m c main_arg0
abbrev kArr (c : Dev nD) : Attn.SQ.Idx → EReal := V m c main_arg1
abbrev vArr (c : Dev nD) : Attn.SQ.Idx → EReal := V m c main_arg2
abbrev mwArr (c : Dev nD) : Attn.SM.Idx → BitVec 32 := V m c main_v0

/-- The state after one more chunk is one step from the state before it. -/
theorem stN_succ (s w : Fin 2048 → EReal) : ∀ kv : Fin 4,
    Attn.stN s w (kv.val + 1) = Attn.step (Attn.stN s w kv.val) (fun x => s (Attn.key kv x)) (fun x => w (Attn.key kv x))
  | ⟨0, _⟩ => by show Attn.stN s w 1 = Attn.step (Attn.stN s w 0) _ _; simp only [Attn.stN]; rfl
  | ⟨1, _⟩ => by show Attn.stN s w 2 = Attn.step (Attn.stN s w 1) _ _; simp only [Attn.stN]; rfl
  | ⟨2, _⟩ => by show Attn.stN s w 3 = Attn.step (Attn.stN s w 2) _ _; simp only [Attn.stN]; rfl
  | ⟨3, _⟩ => by show Attn.stN s w 4 = Attn.step (Attn.stN s w 3) _ _; simp only [Attn.stN]; rfl

/-- A point's block scores are the row's scores at the point's keys. -/
theorem bsc_blocks (c : Dev nD) (t : Fin cfg0.N) (rr jj : Fin 512) :
    bsc (qblk m c t) (kblk m c t) (mblk m c t) rr jj
      = ksc (qArr m c) (kArr m c) (mwArr m c) (bOf t) (rowOf t rr) (Attn.key (kvOf t) jj) := by
  unfold bsc ksc
  simp only [mblk_apply, qblk_apply, kblk_apply]

/-- The scores of the row a point's local row `rr` belongs to. -/
def rowScore (c : Dev nD) (t : Fin cfg0.N) (rr : Fin 512) : Fin 2048 → EReal :=
  ksc (qArr m c) (kArr m c) (mwArr m c) (bOf t) (rowOf t rr)
/-- The value column of the point's batch at feature `d`. -/
def valCol (c : Dev nD) (t : Fin cfg0.N) (d : Fin 128) : Fin 2048 → EReal :=
  fun j => vArr m c (ix3 (bOf t) j d)

/-- A row's entries of the three buffers after point `n`: (maximum, denominator, numerator at feature d). -/
def rowSt (c : Dev nD) (n : ℕ) (h : n < cfg0.N) (rr : Fin 512) (d : Fin 128) : EReal × EReal × EReal :=
  (maxAt m c n h (ix2 rr (0 : Fin 1)), denAt m c n h (ix2 rr (0 : Fin 1)), accAt m c n h (ix2 rr d))

/-- The point's chunk of the row's scores and of the value column. -/
theorem chunk_eq (c : Dev nD) (t : Fin cfg0.N) (rr : Fin 512) (d : Fin 128) :
    Attn.step (Attn.stN (rowScore m c t rr) (valCol m c t d) (kvOf t).val) (bsc (qblk m c t) (kblk m c t) (mblk m c t) rr)
        (fun jj : Fin 512 => vblk m c t (ix3 (0 : Fin 1) jj d))
      = Attn.stN (rowScore m c t rr) (valCol m c t d) (t.val % 4 + 1) := by
  rw [show t.val % 4 + 1 = (kvOf t).val + 1 from rfl, stN_succ]
  congr 1
  · funext jj; exact bsc_blocks m c t rr jj
  · funext jj; exact vblk_apply m c t jj d

/-- Key chunk 0. -/
theorem inv_A (c : Dev nD) (t : Fin cfg0.N) (h0 : t.val % 4 = 0) (rr : Fin 512) (d : Fin 128) :
    rowSt m c t.val t.isLt rr d = Attn.stN (rowScore m c t rr) (valCol m c t d) (t.val % 4 + 1) := by
  obtain ⟨ha, hm, hd⟩ := point_A m c t h0
  unfold rowSt
  rw [hm, hd, ha]
  refine (step_vals (qblk m c t) (kblk m c t) (vblk m c t) (mblk m c t) (k0_pay5 (F := Ideal)) (k0_pay6 (F := Ideal)) (k0_pay7 (F := Ideal)) rr d).trans ?_
  rw [init_vals rr d, ← chunk_eq m c t rr d]
  have hk : (kvOf t).val = 0 := h0
  rw [hk]
  simp only [Attn.stN]

/-- Key chunks 1, 2, 3, from the row's state after the point before. -/
theorem inv_BC (c : Dev nD) (t : Fin cfg0.N) (h0 : ¬t.val % 4 = 0)
    (ih : ∀ (k : ℕ) (hk : k < cfg0.N), k + 1 = t.val → ∀ (rr : Fin 512) (d : Fin 128),
      rowSt m c k hk rr d = Attn.stN (rowScore m c ⟨k, hk⟩ rr) (valCol m c ⟨k, hk⟩ d) (k % 4 + 1))
    (rr : Fin 512) (d : Fin 128) :
    rowSt m c t.val t.isLt rr d = Attn.stN (rowScore m c t rr) (valCol m c t d) (t.val % 4 + 1) := by
  have hupd : accAt m c t.val t.isLt = k0_pay2 (k0_pay8 (vblk m c t)) (k0_pay11 (qblk m c t) (kblk m c t) (mblk m c t) (maxPrev m c t)) (k0_pay12 (qblk m c t) (kblk m c t) (mblk m c t) (maxPrev m c t)) (accPrev m c t)
      ∧ maxAt m c t.val t.isLt = k0_pay3 (k0_pay10 (qblk m c t) (kblk m c t) (mblk m c t) (maxPrev m c t))
      ∧ denAt m c t.val t.isLt = k0_pay1 (k0_pay12 (qblk m c t) (kblk m c t) (mblk m c t) (maxPrev m c t)) (k0_pay13 (qblk m c t) (kblk m c t) (mblk m c t) (maxPrev m c t) (denPrev m c t)) := by
    by_cases h1 : t.val % 4 = 3
    · obtain ⟨a, b, c', -⟩ := point_C m c t h1; exact ⟨a, b, c'⟩
    · exact point_B m c t h0 h1
  obtain ⟨ha, hm, hd⟩ := hupd
  unfold rowSt
  rw [hm, hd, ha]
  refine (step_vals (qblk m c t) (kblk m c t) (vblk m c t) (mblk m c t) (accPrev m c t) (maxPrev m c t) (denPrev m c t) rr d).trans ?_
  rw [← chunk_eq m c t rr d]
  have hlt : t.val - 1 < cfg0.N := Nat.lt_of_le_of_lt (Nat.sub_le _ _) t.isLt
  have hprev := ih (t.val - 1) hlt (by omega) rr d
  have e1 : rowScore m c ⟨t.val - 1, hlt⟩ rr = rowScore m c t rr := by
    unfold rowScore
    have eb : bOf ⟨t.val - 1, hlt⟩ = bOf t := Fin.ext (by show (t.val - 1) / 16 = t.val / 16; omega)
    have er : rowOf ⟨t.val - 1, hlt⟩ rr = rowOf t rr := Fin.ext (by show 512 * ((t.val - 1) / 4 % 4) + rr.val = 512 * (t.val / 4 % 4) + rr.val; omega)
    rw [eb, er]
  have e2 : valCol m c ⟨t.val - 1, hlt⟩ d = valCol m c t d := by
    unfold valCol
    have eb : bOf ⟨t.val - 1, hlt⟩ = bOf t := Fin.ext (by show (t.val - 1) / 16 = t.val / 16; omega)
    rw [eb]
  have e3 : (t.val - 1) % 4 + 1 = (kvOf t).val := by show _ = t.val % 4; omega
  rw [e1, e2, e3] at hprev
  rw [← hprev]
  rfl

/-- After every grid point the row's entries of the three buffers are the recurrence's state after the point's chunk. -/
theorem inv (c : Dev nD) : ∀ (n : ℕ) (h : n < cfg0.N) (rr : Fin 512) (d : Fin 128),
    rowSt m c n h rr d = Attn.stN (rowScore m c ⟨n, h⟩ rr) (valCol m c ⟨n, h⟩ d) (n % 4 + 1) := by
  intro n
  induction n with
  | zero => intro h rr d; exact inv_A m c ⟨0, h⟩ rfl rr d
  | succ n ih =>
    intro h rr d
    by_cases h0 : (n + 1) % 4 = 0
    · exact inv_A m c ⟨n + 1, h⟩ h0 rr d
    · refine inv_BC m c ⟨n + 1, h⟩ h0 (fun k hk e rr' d' => ?_) rr d
      have hkn : k = n := by have : k + 1 = n + 1 := e; omega
      subst hkn
      exact ih hk rr' d'

end Cert.KernelIdeal.KV

end
-- ==== Proof.KFinal.lean ====
/-
  The kernel's result array.

  The output block of batch b and query block qi is written back once, after key chunk 3, and holds at local row rr and
  feature d the quotient numerator / denominator of the row's state after all four chunks.  The 64 written blocks tile
  the result array, so the array is, entry by entry, that quotient for its own batch, row and feature.
-/
import proofs.«400571_j74010876444950_3_alg».proof.Proof.KInv
import proofs.«400571_j74010876444950_3_alg».proof.Proof.Gen.KernelIdeal.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The quotient after the four chunks, for batch `b`, row `r`, feature `d`. -/
def quot (c : Dev nD) (b : Fin 16) (r : Fin 2048) (d : Fin 128) : EReal :=
  Ideal.div (Attn.st4 (ksc (qArr m c) (kArr m c) (mwArr m c) b r) (fun j => vArr m c (ix3 b j d))).2.2
    (Attn.st4 (ksc (qArr m c) (kArr m c) (mwArr m c) b r) (fun j => vArr m c (ix3 b j d))).2.1

/-- The result array as one function of the arrays the kernel finds. -/
def Gk (c : Dev nD) : S16x2048x128.Idx → EReal := fun i => quot m c (i 0) (i 1) (i 2)

/-- An entry of the output block after key chunk 3. -/
theorem out_entry (c : Dev nD) (t : Fin cfg0.N) (h3 : t.val % 4 = 3) (rr : Fin 512) (d : Fin 128) :
    outAt m c t.val t.isLt (ix3 (0 : Fin 1) rr d) = quot m c (bOf t) (rowOf t rr) d := by
  obtain ⟨ha, hm, hd, ho⟩ := point_C m c t h3
  have ho' : outAt m c t.val t.isLt = k0_pay4 (accAt m c t.val t.isLt) (denAt m c t.val t.isLt) := ho.trans (by rw [ha, hd])
  rw [ho']
  refine (out_val (accAt m c t.val t.isLt) (denAt m c t.val t.isLt) rr d).trans ?_
  have hi := inv m c t.val t.isLt rr d
  rw [h3] at hi
  have h4 : Attn.stN (rowScore m c t rr) (valCol m c t d) (3 + 1) = Attn.st4 (rowScore m c t rr) (valCol m c t d) := rfl
  rw [h4] at hi
  have h21 := congrArg (fun p => p.2.1) hi
  have h22 := congrArg (fun p => p.2.2) hi
  dsimp only [rowSt] at h21 h22
  rw [h21, h22]
  rfl

/-- Where the output block of point `t` sits in the result array. -/
theorem emb_out (t : Fin cfg0.N) (rr : Fin 512) (d : Fin 128) :
    (((cfg0.win 4).blk t).view.emb (ix3 (0 : Fin 1) rr d) : S16x2048x128.Idx) = ix3 (bOf t) (rowOf t rr) d := by
  obtain ⟨-, -, -, -, -, -, -, -, -, -, -, -, e0, e1, e2⟩ := idx_facts t
  funext a; apply Fin.ext
  match a with
  | ⟨0, _⟩ => show win0_4.index t (0 : Fin 3) * 1 + 1 * 0 = t.val / 16; omega
  | ⟨1, _⟩ => show win0_4.index t (1 : Fin 3) * 512 + 1 * rr.val = 512 * (t.val / 4 % 4) + rr.val; omega
  | ⟨2, _⟩ => show win0_4.index t (2 : Fin 3) * 128 + 1 * d.val = d.val; omega

/-- What a write-back writes is the block of `Gk`. -/
theorem flushed_eq (c : Dev nD) (t : Fin cfg0.N) (hf : (cfg0.win 4).flush t = true) :
    (dats m 0 c).flushed 4 t = ((cfg0.win 4).blk t).view.read (Elt Ideal) (Gk m c) := by
  have h3 : t.val % 4 = 3 := (flush0_4 t).mp hf
  rw [Cert.KernelIdeal.Value.flushed4]
  funext y
  show outAt m c t.val t.isLt y = Gk m c (((cfg0.win 4).blk t).view.emb y)
  obtain ⟨z, rr, d, rfl⟩ : ∃ (z : Fin 1) (rr : Fin 512) (d : Fin 128), y = ix3 z rr d := ⟨y 0, y 1, y 2, eq_ix3 y⟩
  obtain rfl : z = 0 := Subsingleton.elim _ _
  rw [emb_out, out_entry m c t h3]
  rfl

/-- An entry of the array is in point `t`'s output block iff each coordinate is in the block's range. -/
theorem mem_blk (t : Fin cfg0.N) (i : S16x2048x128.Idx) :
    i ∈ ((cfg0.win 4).blk t).view.set ↔ ∀ a : Fin 3, win0_4.index t a * S1x512x128.size a ≤ (i a).val ∧ (i a).val < win0_4.index t a * S1x512x128.size a + S1x512x128.size a := by
  show i ∈ ((View.whole main_v1).slice (win0_4.rect t)).set ↔ _
  rw [View.set_slice_whole, Rect.mem_set_unit]
  exact Iff.rfl

/-- The result array after the run. -/
theorem final (c : Dev nD) : (dats m 0 c).arrAt 4 cfg0.N = Gk m c :=
  (dats m 0 c).arrAt_eq_of_cover 4 (Gk m c) (flushed_eq m c) fun i => by
    have hi0 : (i 0).val < 16 := (i 0).isLt
    have hi1 : (i 1).val < 2048 := (i 1).isLt
    have hi2 : (i 2).val < 128 := (i 2).isLt
    have hN := N_eq
    let t : Fin cfg0.N := ⟨16 * (i 0).val + 4 * ((i 1).val / 512) + 3, by omega⟩
    have htv : t.val = 16 * (i 0).val + 4 * ((i 1).val / 512) + 3 := rfl
    refine ⟨t, (flush0_4 t).mpr (by omega), ?_⟩
    rw [mem_blk]
    obtain ⟨-, -, -, -, -, -, -, -, -, -, -, -, e0, e1, e2⟩ := idx_facts t
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 512 ≤ (i 1).val ∧ (i 1).val < win0_4.index t (1 : Fin 3) * 512 + 512; omega
    | ⟨2, _⟩ => show win0_4.index t (2 : Fin 3) * 128 ≤ (i 2).val ∧ (i 2).val < win0_4.index t (2 : Fin 3) * 128 + 128; omega

/-- The kernel's run: the result array at `Gk`, the arguments unchanged. -/
theorem run : θ_run defs (onTc (τ := τ) (main (F := Ideal))) ⟨m, fun _ => 0, ρ⟩ fun r => ∀ c : Dev nD,
      r.2.mem ((c : Thread nD τ).loc main_v1) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.KV

end
-- ==== Proof.OnlineSoftmax.lean ====
import proofs.«400571_j74010876444950_3_alg».proof.Proof.Spec
import Mathlib.Data.EReal.Operations
import Mathlib.Data.Finset.Fold
import Mathlib.Data.Finset.Max
import Mathlib.Data.Fintype.BigOperators
import Mathlib.Algebra.BigOperators.Fin
import Mathlib.Algebra.Order.BigOperators.Group.Finset
import Mathlib.Analysis.SpecialFunctions.Exp

/-!
  The online recurrence over four chunks of 512 keys equals the softmax-weighted sum over the row.

  With real scores the state after a chunk is (m, P m, Q m): m the maximum of the scores seen, P and Q the
  sums of exp(s_j - M) and of exp(s_j - M) * w_j over the keys seen, as functions of the reference point M.
  Such sums move with the reference point by exp(a - b) * P a = P b, which is what a step multiplies the old
  sums by; so after the four chunks the state holds the row's maximum and the row's two sums at it, and their
  quotient is the sum of the softmax weights times the values.  Also here: the two constants of the scores
  are real numbers, and a real scale can be taken out of a dot product of reals.
-/

noncomputable section

namespace Attn

open Idealize.ShloMosaic

/-! ## Finite bit patterns are real numbers -/

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩

theorem negBig_real : ∃ r : ℝ, negBig = (r : EReal) :=
  ieee_real 8 23 (0xFF7FFFFF#32) (by decide)

theorem scale_real : ∃ r : ℝ, scale = (r : EReal) :=
  ieee_real 8 23 (0x3DB504F3#32) (by decide)

/-! ## Coercion of finite sums and of maxima -/

theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem coe_max (a b : ℝ) : ((max a b : ℝ) : EReal) = max (a : EReal) (b : EReal) :=
  EReal.coe_strictMono.monotone.map_max

/-- With real entries the scale can be taken out of a dot product. -/
theorem score_scale (q k : Fin 128 → EReal) (c : EReal) (hq : ∀ d, ∃ r : ℝ, q d = (r : EReal))
    (hk : ∀ d, ∃ r : ℝ, k d = (r : EReal)) (hc : ∃ r : ℝ, c = (r : EReal)) :
    ∑ d : Fin 128, (q d * c) * k d = (∑ d : Fin 128, q d * k d) * c := by
  choose qr hqr using hq
  choose kr hkr using hk
  obtain ⟨cr, rfl⟩ := hc
  simp only [hqr, hkr, ← EReal.coe_mul, ← coe_sum]
  rw [Finset.sum_mul]
  exact congrArg _ (Finset.sum_congr rfl fun d _ => mul_right_comm _ _ _)

/-! ## The maximum of finitely many reals -/

/-- The running maximum from -inf of a nonempty finite family of reals is one of its members,
    and that member is at least every other. -/
theorem fold_max_coe {κ : Type} [Fintype κ] [Nonempty κ] (g : κ → ℝ) :
    ∃ x, (Finset.univ : Finset κ).fold max ⊥ (fun y => (g y : EReal)) = (g x : EReal) ∧
      ∀ y, g y ≤ g x := by
  obtain ⟨x, -, hx⟩ := Finset.exists_max_image Finset.univ g Finset.univ_nonempty
  refine ⟨x, le_antisymm ?_ ?_, fun y => hx y (Finset.mem_univ y)⟩
  · exact (Finset.fold_max_le _).mpr ⟨bot_le, fun y hy => EReal.coe_le_coe_iff.mpr (hx y hy)⟩
  · exact (Finset.le_fold_max _).mpr (Or.inr ⟨x, Finset.mem_univ x, le_rfl⟩)

/-! ## Moving the reference point of a sum of exponentials -/

theorem shift_sum {κ : Type} [Fintype κ] (g h : κ → ℝ) (a b : ℝ) :
    Real.exp (a - b) * ∑ x, Real.exp (g x - a) * h x = ∑ x, Real.exp (g x - b) * h x := by
  rw [Finset.mul_sum]
  refine Finset.sum_congr rfl fun x _ => ?_
  rw [← mul_assoc, ← Real.exp_add, show a - b + (g x - a) = g x - b by ring]

theorem shift_sum1 {κ : Type} [Fintype κ] (g : κ → ℝ) (a b : ℝ) :
    Real.exp (a - b) * ∑ x, Real.exp (g x - a) = ∑ x, Real.exp (g x - b) := by
  simpa using shift_sum g (fun _ => 1) a b

/-! ## The invariant of the recurrence -/

/-- The state is `(m, P m, Q m)` for a real `m` and two functions of the reference point that
    move with it as sums of exponentials do. -/
def Good (st : EReal × EReal × EReal) (m : ℝ) (P Q : ℝ → ℝ) : Prop :=
  st = ((m : EReal), ((P m : ℝ) : EReal), ((Q m : ℝ) : EReal)) ∧
    (∀ a b, Real.exp (a - b) * P a = P b) ∧ (∀ a b, Real.exp (a - b) * Q a = Q b)

/-- The first chunk: from the empty state the factor exp(-inf - m') multiplies zeros. -/
theorem good_first {κ : Type} [Fintype κ] [Nonempty κ] (g h : κ → ℝ) :
    ∃ x₀, (∀ y, g y ≤ g x₀) ∧
      Good (step st0 (fun x => (g x : EReal)) (fun x => (h x : EReal))) (g x₀)
        (fun M => ∑ x, Real.exp (g x - M)) (fun M => ∑ x, Real.exp (g x - M) * h x) := by
  obtain ⟨x₀, hfold, hle⟩ := fold_max_coe g
  refine ⟨x₀, hle, ?_, fun a b => shift_sum1 g a b, fun a b => shift_sum g h a b⟩
  unfold step st0
  simp only [hfold, mul_zero, zero_add, max_eq_right (bot_le : (⊥ : EReal) ≤ _)]
  simp only [← EReal.coe_sub, Ideal.exp_coe, ← EReal.coe_mul, ← coe_sum]

/-- A later chunk: the old sums are moved to the new maximum and the chunk's sums are added. -/
theorem good_step {κ : Type} [Fintype κ] [Nonempty κ] {st : EReal × EReal × EReal} {m : ℝ}
    {P Q : ℝ → ℝ} (hst : Good st m P Q) (g h : κ → ℝ) :
    ∃ x₀, (∀ y, g y ≤ g x₀) ∧
      Good (step st (fun x => (g x : EReal)) (fun x => (h x : EReal))) (max m (g x₀))
        (fun M => P M + ∑ x, Real.exp (g x - M)) (fun M => Q M + ∑ x, Real.exp (g x - M) * h x) := by
  obtain ⟨rfl, hP, hQ⟩ := hst
  obtain ⟨x₀, hfold, hle⟩ := fold_max_coe g
  refine ⟨x₀, hle, ?_, fun a b => by simp only [mul_add, hP, shift_sum1],
    fun a b => by simp only [mul_add, hQ, shift_sum]⟩
  unfold step
  simp only [hfold, ← coe_max, ← EReal.coe_sub, Ideal.exp_coe, ← EReal.coe_mul, ← coe_sum,
    ← EReal.coe_add, hP, hQ]

/-! ## The four chunks cover the row -/

theorem key_surj (j : Fin 2048) : ∃ n x, key n x = j :=
  ⟨⟨j.val / 512, by omega⟩, ⟨j.val % 512, by omega⟩, Fin.ext (by simp only [key]; omega)⟩

theorem sum_chunks (F : Fin 2048 → ℝ) :
    ∑ j, F j = ∑ x, F (key 0 x) + ∑ x, F (key 1 x) + ∑ x, F (key 2 x) + ∑ x, F (key 3 x) := by
  have h : ∑ j, F j = ∑ p : Fin 4 × Fin 512, F (key p.1 p.2) :=
    ((finProdFinEquiv (m := 4) (n := 512)).sum_comp F).symm
  rw [h, Fintype.sum_prod_type, Fin.sum_univ_four]

/-! ## The recurrence computes the softmax-weighted sum -/

theorem online_real (sr wr : Fin 2048 → ℝ) :
    Ideal.div (st4 (fun j => (sr j : EReal)) (fun j => (wr j : EReal))).2.2
        (st4 (fun j => (sr j : EReal)) (fun j => (wr j : EReal))).2.1 =
      attnRow (fun j => (sr j : EReal)) (fun j => (wr j : EReal)) := by
  obtain ⟨x0, hle0, h1⟩ := good_first (fun x => sr (key 0 x)) (fun x => wr (key 0 x))
  obtain ⟨x1, hle1, h2⟩ := good_step h1 (fun x => sr (key 1 x)) (fun x => wr (key 1 x))
  obtain ⟨x2, hle2, h3⟩ := good_step h2 (fun x => sr (key 2 x)) (fun x => wr (key 2 x))
  obtain ⟨x3, hle3, h4⟩ := good_step h3 (fun x => sr (key 3 x)) (fun x => wr (key 3 x))
  obtain ⟨h4, -, -⟩ := h4
  simp only [st4, stN]
  rw [h4]
  dsimp only
  generalize hM : max (max (max (sr (key 0 x0)) (sr (key 1 x1))) (sr (key 2 x2))) (sr (key 3 x3)) = M
  -- M is the maximum of the whole row
  have hall : ∀ j, sr j ≤ M := by
    intro j
    obtain ⟨n, x, rfl⟩ := key_surj j
    rw [← hM]
    fin_cases n
    · exact le_max_of_le_left (le_max_of_le_left (le_max_of_le_left (hle0 x)))
    · exact le_max_of_le_left (le_max_of_le_left (le_max_of_le_right (hle1 x)))
    · exact le_max_of_le_left (le_max_of_le_right (hle2 x))
    · exact le_max_of_le_right (hle3 x)
  have hrow : rowMax (fun j => (sr j : EReal)) = (M : EReal) := by
    obtain ⟨j0, hfold, hle⟩ := fold_max_coe sr
    have hMle : M ≤ sr j0 := by
      rw [← hM]; exact max_le (max_le (max_le (hle _) (hle _)) (hle _)) (hle _)
    unfold rowMax
    rw [hfold, le_antisymm (hall j0) hMle]
  -- the sums over the four chunks are the sums over the row
  rw [← sum_chunks (fun j => Real.exp (sr j - M)), ← sum_chunks (fun j => Real.exp (sr j - M) * wr j)]
  have hpos : 0 < ∑ j, Real.exp (sr j - M) :=
    Finset.sum_pos (fun j _ => Real.exp_pos _) Finset.univ_nonempty
  unfold attnRow
  simp only [hrow, ← EReal.coe_sub, Ideal.exp_coe, ← coe_sum, Ideal.div_coe hpos.ne',
    ← EReal.coe_mul]
  rw [Finset.sum_mul]
  exact congrArg _ (Finset.sum_congr rfl fun j _ => mul_right_comm _ _ _)

theorem online_eq_attnRow (s w : Fin 2048 → EReal) (hs : ∀ j, ∃ r : ℝ, s j = (r : EReal))
    (hw : ∀ j, ∃ r : ℝ, w j = (r : EReal)) :
    Ideal.div (st4 s w).2.2 (st4 s w).2.1 = attnRow s w := by
  choose sr hsr using hs
  choose wr hwr using hw
  obtain rfl : s = fun j => (sr j : EReal) := funext hsr
  obtain rfl : w = fun j => (wr j : EReal) := funext hwr
  exact online_real sr wr

end Attn

end
-- ==== Proof.Bridge.lean ====
/-
  The kernel's result array is the attention output.

  Three facts join the kernel's quotient to the specification.  The kernel tests a mask WORD against zero where the
  specification reads the mask BIT: a bit widened to a word is nonzero exactly when the bit is set.  The kernel scales q
  before the product with k where the specification scales the product: for real entries
  sum_d (q_d * c) * k_d = (sum_d q_d * k_d) * c.  And for real scores and values the online recurrence over four chunks
  ends at numerator / denominator equal to the softmax-weighted sum.  The entries are real under the precondition that
  every float input is finite.
-/
import proofs.«400571_j74010876444950_3_alg».proof.Proof.KFinal
import proofs.«400571_j74010876444950_3_alg».proof.Proof.OnlineSoftmax

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- A bit widened to a word is nonzero exactly when the bit is set. -/
theorem maskbit (x : BitVec 1) : Scalar.cmpi .ne (x.setWidth 32) 0#32 = x := by
  by_cases hx : x = 1#1
  · subst hx; decide
  · obtain rfl := eq_zero_of_ne_one hx; decide

/-- A score of real q and k entries is real. -/
theorem score_real (q k : Attn.SQ.Idx → EReal) (mask : Attn.SM.Idx → BitVec 1)
    (hq : ∀ i, ∃ r : ℝ, q i = (r : EReal)) (hk : ∀ i, ∃ r : ℝ, k i = (r : EReal)) (b : Fin 16) (r j : Fin 2048) :
    ∃ x : ℝ, Attn.score q k mask b r j = (x : EReal) := by
  unfold Attn.score Scalar.select
  split
  · exact Attn.negBig_real
  · choose qr hqr using hq
    choose kr hkr using hk
    obtain ⟨s, hs⟩ := Attn.scale_real
    refine ⟨(∑ d : Fin 128, qr (ix3 b r d) * kr (ix3 b j d)) * s, ?_⟩
    rw [hs, EReal.coe_mul, Attn.coe_sum]
    congr 1
    exact Finset.sum_congr rfl fun d _ => by rw [hqr, hkr, EReal.coe_mul]

/-- The scores as the kernel computes them are the specification's, for real q and k. -/
theorem ksc_eq_score (c : Dev nD)
    (hq : ∀ i, ∃ r : ℝ, (m ((c : Thread nD τ).loc main_arg0)) i = (r : EReal)) (hk : ∀ i, ∃ r : ℝ, (m ((c : Thread nD τ).loc main_arg1)) i = (r : EReal))
    (b : Fin 16) (r : Fin 2048) :
    ksc (qArr m c) (kArr m c) (mwArr m c) b r
      = Attn.score (m ((c : Thread nD τ).loc main_arg0)) (m ((c : Thread nD τ).loc main_arg1)) (m ((c : Thread nD τ).loc main_arg3)) b r := by
  funext j
  unfold ksc Attn.score
  have hw : mwArr m c (ix3 b r j) = ((m ((c : Thread nD τ).loc main_arg3)) (ix3 b r j)).setWidth 32 := by
    show (V m c main_v0 : Vec Ideal S16x2048x2048 .i32) (ix3 b r j) = _
    rw [maskWords]
    rfl
  rw [hw, maskbit]
  have hqa : qArr m c = (m ((c : Thread nD τ).loc main_arg0)) := V_main_arg0 m c
  have hka : kArr m c = (m ((c : Thread nD τ).loc main_arg1)) := V_main_arg1 m c
  rw [hqa, hka]
  congr 1
  exact Attn.score_scale (fun d => (m ((c : Thread nD τ).loc main_arg0)) (ix3 b r d)) (fun d => (m ((c : Thread nD τ).loc main_arg1)) (ix3 b j d)) Attn.scale
    (fun d => hq _) (fun d => hk _) Attn.scale_real

/-- The kernel's result array is the attention output of the argument arrays, when their float entries are real. -/
theorem Gk_eq_G (c : Dev nD)
    (hq : ∀ i, ∃ r : ℝ, (m ((c : Thread nD τ).loc main_arg0)) i = (r : EReal)) (hk : ∀ i, ∃ r : ℝ, (m ((c : Thread nD τ).loc main_arg1)) i = (r : EReal))
    (hv : ∀ i, ∃ r : ℝ, (m ((c : Thread nD τ).loc main_arg2)) i = (r : EReal)) :
    Gk m c = Attn.G (m ((c : Thread nD τ).loc main_arg0)) (m ((c : Thread nD τ).loc main_arg1)) (m ((c : Thread nD τ).loc main_arg2)) (m ((c : Thread nD τ).loc main_arg3)) := by
  funext i
  obtain ⟨b, r, d, rfl⟩ : ∃ (b : Fin 16) (r : Fin 2048) (d : Fin 128), i = ix3 b r d := ⟨i 0, i 1, i 2, eq_ix3 i⟩
  show quot m c b r d = Attn.Gat (m ((c : Thread nD τ).loc main_arg0)) (m ((c : Thread nD τ).loc main_arg1)) (m ((c : Thread nD τ).loc main_arg2)) (m ((c : Thread nD τ).loc main_arg3)) b r d
  unfold quot Attn.Gat
  have hva : vArr m c = (m ((c : Thread nD τ).loc main_arg2)) := V_main_arg2 m c
  rw [ksc_eq_score m c hq hk b r, hva]
  exact Attn.online_eq_attnRow _ _ (fun j => score_real _ _ _ hq hk b r j) (fun j => hv _)

end Cert.KernelIdeal.KV

end
-- ==== Proof.RefSpec.lean ====
/-
  The reference program's result, read index by index, is scaled dot-product attention with a boolean mask.

  At (b, r, j) the reference's masked score is the fill value where the mask holds and otherwise
  (sum over d of q[b,r,d] * k[b,j,d]) * c.  Its reduction of a row's 2048 scores with maximum, from -inf, is the fold of
  max over the keys from the least extended real, and the further maximum with -inf it takes changes nothing, since
  max ⊥ x = x.  The exponentials exp(s_j - M), their sum over the keys from 0 (0 + S = S), the quotient and the
  contraction with v over the keys then give, at (b, r, d),
      sum over j of (exp(s_j - M) / sum over j' of exp(s_j' - M)) * v[b,j,d],
  which is the specification's attention output.  Each stage is stated at an index written by its coordinates, so that
  the reference's index maps (a broadcast's source index, a contraction's operand indices, a reduced index with the key
  inserted) are equations between explicit coordinate triples.
-/
import proofs.«400571_j74010876444950_3_alg».proof.Proof.Spec
import proofs.«400571_j74010876444950_3_alg».proof.Proof.Gen.ReferenceIdeal.Read
import Idealize.ShloMosaic.PureOps.Reduce
import Idealize.ShloMosaic.PureOps.Ideal.Laws
import Idealize.ShloMosaic.Lib.ValueIdx

noncomputable section

namespace Attn

open Cert.ReferenceIdeal Cert.ReferenceIdeal.Gen Cert.ReferenceIdeal.Read Idealize.ShloMosaic Idealize.ShloMosaic.ValueIdx

/-! ## The reference's index functions at an index given by its coordinates -/

theorem lidx_v0_ix3 (b : Fin 16) (r j : Fin 2048) (k : Fin 128) :
    lidx_main_v0 (ix3 b r j) k = ix3 b r k :=
  funext fun a => Fin.ext (by match a with | ⟨0, _⟩ => rfl | ⟨1, _⟩ => rfl | ⟨2, _⟩ => rfl)

theorem ridx_v0_ix3 (b : Fin 16) (r j : Fin 2048) (k : Fin 128) :
    ridx_main_v0 (ix3 b r j) k = ix3 b j k :=
  funext fun a => Fin.ext (by match a with | ⟨0, _⟩ => rfl | ⟨1, _⟩ => rfl | ⟨2, _⟩ => rfl)

/-! ## The masked, scaled score -/

/-- The reference's masked score at (b, r, j) is the specification's. -/
theorem v3_ix3 (x0 x1 : (⟨S16x2048x128, .f32⟩ : BufTy).Contents (Elt Ideal))
    (x3 : (⟨S16x2048x2048, .i1⟩ : BufTy).Contents (Elt Ideal)) (b : Fin 16) (r j : Fin 2048) :
    val_main_v3 (F := Ideal) x0 x1 x3 (ix3 b r j) = score x0 x1 x3 b r j := by
  rw [val_main_v3_apply, val_main_call0_v1_apply, val_main_call0_v0_apply, val_main_cst_0_apply,
    val_main_v2_apply, val_main_v0_apply, val_main_v1_apply, val_main_cst_apply]
  simp only [Ideal.mulf_def, Ideal.ofBits_def, lidx_v0_ix3, ridx_v0_ix3]
  rfl

/-! ## The row maximum -/

/-- The pattern of f32's -inf is the least extended real. -/
theorem ofBits_negInf : Ideal.ofBits .f32 0xFF800000#32 = (⊥ : EReal) := by
  simp [Ideal.ofBits, Ideal.ieee]

/-- The index of the scores over (b, r) with key j inserted on the reduced axis. -/
theorem lift_ix2 (h : S16x2048x2048.Reduces [2] S16x2048) (b : Fin 16) (r : Fin 2048) (j : Fin 2048) :
    h.lift (ix2 b r) j = ix3 b r j :=
  funext fun a => Fin.ext (by match a with | ⟨0, _⟩ => rfl | ⟨1, _⟩ => rfl | ⟨2, _⟩ => rfl)

/-- The reference's reduction of the scores over the keys, from -inf, is the row maximum. -/
theorem v4_ix2 (x0 x1 : (⟨S16x2048x128, .f32⟩ : BufTy).Contents (Elt Ideal))
    (x3 : (⟨S16x2048x2048, .i1⟩ : BufTy).Contents (Elt Ideal)) (b : Fin 16) (r : Fin 2048) :
    val_main_v4 (F := Ideal) x0 x1 x3 (ix2 b r) = rowMax (score x0 x1 x3 b r) := by
  have h : S16x2048x2048.Reduces [2] S16x2048 := by decide
  unfold val_main_v4
  rw [Host.reduce_eq_fold_single FloatOps.maximumf _ _ reducesTo_S16x2048x2048_S16x2048_d2 h h_S_ (ix2 b r)]
  have hf : (val_main_v3 (F := Ideal) x0 x1 x3 ∘ h.lift (ix2 b r)) = score x0 x1 x3 b r :=
    funext fun j => (congrArg (val_main_v3 (F := Ideal) x0 x1 x3) (lift_ix2 h b r j)).trans (v3_ix3 x0 x1 x3 b r j)
  rw [hf, val_main_cst_1_apply, Ideal.ofBits_def, ofBits_negInf]
  rfl

/-- The reference takes the maximum of -inf and the reduction: still the row maximum. -/
theorem v6_ix2 (x0 x1 : (⟨S16x2048x128, .f32⟩ : BufTy).Contents (Elt Ideal))
    (x3 : (⟨S16x2048x2048, .i1⟩ : BufTy).Contents (Elt Ideal)) (b : Fin 16) (r : Fin 2048) :
    val_main_v6 (F := Ideal) x0 x1 x3 (ix2 b r) = rowMax (score x0 x1 x3 b r) := by
  rw [val_main_v6_apply, val_main_v5_apply, val_main_cst_2_apply, v4_ix2, Ideal.maximumf_def, Ideal.ofBits_def,
    ofBits_negInf]
  exact max_eq_right bot_le

theorem idx_v7_v8_ix3 (b : Fin 16) (r j : Fin 2048) :
    idx_main_v7 (idx_main_v8 (ix3 b r j)) = ix2 b r :=
  funext fun a => Fin.ext (by match a with | ⟨0, _⟩ => rfl | ⟨1, _⟩ => rfl)

/-- The row maximum broadcast back along the keys. -/
theorem v8_ix3 (x0 x1 : (⟨S16x2048x128, .f32⟩ : BufTy).Contents (Elt Ideal))
    (x3 : (⟨S16x2048x2048, .i1⟩ : BufTy).Contents (Elt Ideal)) (b : Fin 16) (r j : Fin 2048) :
    val_main_v8 (F := Ideal) x0 x1 x3 (ix3 b r j) = rowMax (score x0 x1 x3 b r) := by
  rw [val_main_v8_apply, val_main_v7_apply, idx_v7_v8_ix3, v6_ix2]

/-! ## The exponentials and their row sum -/

/-- The reference's exponential at (b, r, j): exp of the score less the row maximum. -/
theorem v10_ix3 (x0 x1 : (⟨S16x2048x128, .f32⟩ : BufTy).Contents (Elt Ideal))
    (x3 : (⟨S16x2048x2048, .i1⟩ : BufTy).Contents (Elt Ideal)) (b : Fin 16) (r j : Fin 2048) :
    val_main_v10 (F := Ideal) x0 x1 x3 (ix3 b r j)
      = Ideal.exp (score x0 x1 x3 b r j - rowMax (score x0 x1 x3 b r)) := by
  rw [val_main_v10_apply, val_main_v9_apply, v3_ix3, v8_ix3, Ideal.subf_def, Ideal.hostUnary_exp_def]

theorem idx_v11_ix2 (b : Fin 16) (r k : Fin 2048) : idx_main_v11 (ix2 b r) k = ix3 b r k :=
  funext fun a => Fin.ext (by match a with | ⟨0, _⟩ => rfl | ⟨1, _⟩ => rfl | ⟨2, _⟩ => rfl)

/-- The reference's row sum, from 0, is the softmax denominator. -/
theorem v11_ix2 (x0 x1 : (⟨S16x2048x128, .f32⟩ : BufTy).Contents (Elt Ideal))
    (x3 : (⟨S16x2048x2048, .i1⟩ : BufTy).Contents (Elt Ideal)) (b : Fin 16) (r : Fin 2048) :
    val_main_v11 (F := Ideal) x0 x1 x3 (ix2 b r)
      = ∑ j' : Fin 2048, Ideal.exp (score x0 x1 x3 b r j' - rowMax (score x0 x1 x3 b r)) := by
  rw [val_main_v11_apply, val_main_cst_3_apply, Ideal.ofBits_def, Ideal.ofBits_zero_f32, zero_add]
  exact Finset.sum_congr rfl fun k _ => by rw [idx_v11_ix2, v10_ix3]

theorem idx_v12_v13_ix3 (b : Fin 16) (r j : Fin 2048) :
    idx_main_v12 (idx_main_v13 (ix3 b r j)) = ix2 b r :=
  funext fun a => Fin.ext (by match a with | ⟨0, _⟩ => rfl | ⟨1, _⟩ => rfl)

/-- The denominator broadcast back along the keys. -/
theorem v13_ix3 (x0 x1 : (⟨S16x2048x128, .f32⟩ : BufTy).Contents (Elt Ideal))
    (x3 : (⟨S16x2048x2048, .i1⟩ : BufTy).Contents (Elt Ideal)) (b : Fin 16) (r j : Fin 2048) :
    val_main_v13 (F := Ideal) x0 x1 x3 (ix3 b r j)
      = ∑ j' : Fin 2048, Ideal.exp (score x0 x1 x3 b r j' - rowMax (score x0 x1 x3 b r)) := by
  rw [val_main_v13_apply, val_main_v12_apply, idx_v12_v13_ix3, v11_ix2]

/-! ## The weights and the result -/

/-- The reference's softmax weight at (b, r, j). -/
theorem v14_ix3 (x0 x1 : (⟨S16x2048x128, .f32⟩ : BufTy).Contents (Elt Ideal))
    (x3 : (⟨S16x2048x2048, .i1⟩ : BufTy).Contents (Elt Ideal)) (b : Fin 16) (r j : Fin 2048) :
    val_main_v14 (F := Ideal) x0 x1 x3 (ix3 b r j)
      = Ideal.div (Ideal.exp (score x0 x1 x3 b r j - rowMax (score x0 x1 x3 b r)))
          (∑ j' : Fin 2048, Ideal.exp (score x0 x1 x3 b r j' - rowMax (score x0 x1 x3 b r))) := by
  rw [val_main_v14_apply, v10_ix3, v13_ix3, Ideal.hostDivf_def]

theorem lidx_v15_ix3 (b : Fin 16) (r : Fin 2048) (d : Fin 128) (k : Fin 2048) :
    lidx_main_v15 (ix3 b r d) k = ix3 b r k :=
  funext fun a => Fin.ext (by match a with | ⟨0, _⟩ => rfl | ⟨1, _⟩ => rfl | ⟨2, _⟩ => rfl)

theorem ridx_v15_ix3 (b : Fin 16) (r : Fin 2048) (d : Fin 128) (k : Fin 2048) :
    ridx_main_v15 (ix3 b r d) k = ix3 b k d :=
  funext fun a => Fin.ext (by match a with | ⟨0, _⟩ => rfl | ⟨1, _⟩ => rfl | ⟨2, _⟩ => rfl)

/-- The reference's result at (b, r, d) is the attention output there. -/
theorem v15_ix3 (x0 x1 x2 : (⟨S16x2048x128, .f32⟩ : BufTy).Contents (Elt Ideal))
    (x3 : (⟨S16x2048x2048, .i1⟩ : BufTy).Contents (Elt Ideal)) (b : Fin 16) (r : Fin 2048) (d : Fin 128) :
    val_main_v15 (F := Ideal) x0 x1 x2 x3 (ix3 b r d) = Gat x0 x1 x2 x3 b r d := by
  rw [val_main_v15_apply]
  unfold Gat attnRow
  exact Finset.sum_congr rfl fun k _ => by rw [lidx_v15_ix3, ridx_v15_ix3, v14_ix3]

/-- The reference program's result is the attention output, index by index. -/
theorem ref_eq_G (x0 x1 x2 : (⟨Cert.ReferenceIdeal.S16x2048x128, .f32⟩ : BufTy).Contents (Elt Ideal))
    (x3 : (⟨Cert.ReferenceIdeal.S16x2048x2048, .i1⟩ : BufTy).Contents (Elt Ideal)) :
    Cert.ReferenceIdeal.Read.val_main_v15 (F := Ideal) x0 x1 x2 x3 = Attn.G x0 x1 x2 x3 := by
  funext i
  obtain ⟨b, r, d, rfl⟩ : ∃ (b : Fin 16) (r : Fin 2048) (d : Fin 128), i = ix3 b r d := ⟨i 0, i 1, i 2, eq_ix3 i⟩
  rw [v15_ix3, G_ix3]

end Attn

end
-- ==== Proof.Finite.lean ====
/-
  From the precondition "every float input is finite" to "every entry of q, k, v is a real number".

  The precondition is the conjunction, over the three float arrays, of "for all entries, |x| < +inf", each printed as an
  and-reduction over all axes of the entrywise comparison of max x (-x) with the f32 pattern of +inf.  On the extended
  reals that pattern is the top element, and an extended real x with max x (-x) below the top element is neither
  infinity, hence a real number.
-/
import proofs.«400571_j74010876444950_3_alg».proof.Pre_finite_inputs
import Idealize.ShloMosaic.Lib.ReduceAll
import Idealize.ShloMosaic.Lib.ValueIdx
import Idealize.ShloMosaic.Lib.IdealHost
import Idealize.ShloMosaic.PureOps.Ideal.Laws

namespace Attn

open Idealize.ShloMosaic Idealize.ShloMosaic.ValueIdx

namespace FiniteIn

/-- The f32 pattern with every exponent bit set and no fraction bit is +inf. -/
theorem ofBits_posInf : Ideal.ofBits .f32 0x7F800000#32 = (⊤ : EReal) := by
  simp [Ideal.ofBits, Ideal.ieee]

/-- An extended real whose absolute value max x (-x) lies below +inf is a real number: at either infinity the
    maximum is +inf. -/
theorem exists_real_of_abs_lt_top (x : EReal) (h : max x (-x) < ⊤) : ∃ r : ℝ, x = (r : EReal) := by
  induction x using EReal.rec with
  | bot => simp at h
  | coe r => exact ⟨r, rfl⟩
  | top => simp at h

/-- If the conjunction over all entries of "|a| < +inf" is true, every entry of a is a real number. -/
theorem real_of_all_abs_lt_inf {s t u : Shape} {axes : List (Fin s.rank)} [Subsingleton t.Idx]
    (a : FVec Ideal s .f32) (hb : (⟨0, ![]⟩ : Shape).BroadcastsInDim s ![]) (init : u.Idx → BitVec 1)
    (hr : s.ReducesTo axes t) (hu : 0 < u.numel) (j : t.Idx)
    (e : Host.reduce IntOp.andi
          (cmpf .olt (Host.absf a) (broadcastInDim s ![] hb (constant (F := Ideal) ⟨0, ![]⟩ .f32 0x7F800000#32)))
          init hr hu j = 1#1)
    (i : s.Idx) : ∃ r : ℝ, a i = (r : EReal) := by
  -- the conjunction is true, so the comparison is true at the entry i
  have hi := Host.reduce_andi_all _ init hr hu j e i
  -- at i the comparison is  max (a i) (-(a i)) < +inf  as a bit
  rw [cmpf_apply, broadcastInDim_scalar_apply, constant_apply, ofBits_posInf] at hi
  have hlt : max (a i) (-(a i)) < (⊤ : EReal) := by
    by_contra hn
    have : Ideal.cmp .olt (max (a i) (-(a i))) ⊤ = 0#1 := by simp [Ideal.cmp, hn]
    exact absurd (this.symm.trans hi) (by decide)
  exact exists_real_of_abs_lt_top _ hlt

end FiniteIn

/-- Under the precondition that every float input is finite, every entry of the three float arrays is a real number. -/
theorem real_of_pre [Cert.Pre_finite_inputs.Facts]
    (a0 a1 a2 : FVec Ideal Cert.Pre_finite_inputs.S16x2048x128 .f32) (a3 : IVec Cert.Pre_finite_inputs.S16x2048x2048 1)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  -- the scalar shape has exactly one index
  haveI : Subsingleton Cert.Pre_finite_inputs.S_.Idx := ⟨fun a b => funext fun d => d.elim0⟩
  have h0 := congrFun h ValueIdx.ix0
  dsimp only [Cert.Pre_finite_inputs.fn] at h0
  -- (all0 and all1) and all2 = 1 gives each of the three
  obtain ⟨h01, h2⟩ := IntOp.andi_eq_one.1 h0
  obtain ⟨h0', h1⟩ := IntOp.andi_eq_one.1 h01
  exact ⟨FiniteIn.real_of_all_abs_lt_inf a0 _ _ _ _ _ h0', FiniteIn.real_of_all_abs_lt_inf a1 _ _ _ _ _ h1,
    FiniteIn.real_of_all_abs_lt_inf a2 _ _ _ _ _ h2⟩

end Attn
-- ==== Proof.lean ====
/-
  Scaled dot-product attention with a boolean mask: the tiled kernel against the plain softmax reference.

  The kernel walks a grid of (batch, query block of 512 rows, key chunk of 512 keys).  For one query block it keeps, across
  the four key chunks, a running maximum m, a running denominator l and a running numerator acc per row, updated chunk by
  chunk as  m' = max m (max of the chunk's scores),  l' = exp(m - m') l + sum exp(s_j - m'),
  acc' = exp(m - m') acc + sum exp(s_j - m') v_j,  starting from (-inf, 0, 0), and writes acc / l after the last chunk.
  The reference computes, per row, the softmax of all 2048 scores and its product with v.

  On the extended reals, for finite inputs, both are the same function of q, k, v and the mask (Spec.lean):
  - the reference's stages read index by index give the softmax-weighted sum directly (RefSpec.lean);
  - the kernel's buffers after each grid point are the online recurrence's state (KPieces, KPoints, KStepVal, KInv), and its
    result array is numerator / denominator after the fourth chunk, block by block (KBlocks, KFinal);
  - exp(a) exp(b) = exp(a + b) telescopes the recurrence to the softmax-weighted sum, with the denominator positive, and the
    scale moves across the dot product because every entry is real (OnlineSoftmax, Bridge);
  - every float entry is real under the precondition (Finite.lean).
  The idealization changed no operation, so the kernel's sanctioned idealization is the kernel itself read on the
  extended reals, and that conjunct is trivial.
-/
import proofs.«400571_j74010876444950_3_alg».proof.Defs
import proofs.«400571_j74010876444950_3_alg».proof.Proof.Gen.Kernel
import proofs.«400571_j74010876444950_3_alg».proof.Proof.Gen.Kernel.Skeleton
import proofs.«400571_j74010876444950_3_alg».proof.Proof.Gen.Kernel.Launch
import proofs.«400571_j74010876444950_3_alg».proof.Proof.Gen.Kernel.Points
import proofs.«400571_j74010876444950_3_alg».proof.Proof.Gen.Kernel.Frame
import proofs.«400571_j74010876444950_3_alg».proof.Proof.Gen.KernelIdeal
import proofs.«400571_j74010876444950_3_alg».proof.Proof.Gen.KernelIdeal.Skeleton
import proofs.«400571_j74010876444950_3_alg».proof.Proof.Gen.KernelIdeal.Launch
import proofs.«400571_j74010876444950_3_alg».proof.Proof.Gen.KernelIdeal.Points
import proofs.«400571_j74010876444950_3_alg».proof.Proof.Gen.KernelIdeal.Frame
import proofs.«400571_j74010876444950_3_alg».proof.Proof.Gen.ReferenceIdeal
import proofs.«400571_j74010876444950_3_alg».proof.Proof.Gen.Pre_finite_inputs
import proofs.«400571_j74010876444950_3_alg».proof.Proof.Gen.KernelIdeal.Value
import proofs.«400571_j74010876444950_3_alg».proof.Proof.Gen.ReferenceIdeal.Run
import proofs.«400571_j74010876444950_3_alg».proof.Proof.Gen.ReferenceIdeal.Read
import proofs.«400571_j74010876444950_3_alg».proof.Proof.Bridge
import proofs.«400571_j74010876444950_3_alg».proof.Proof.RefSpec
import proofs.«400571_j74010876444950_3_alg».proof.Proof.Finite
import Idealize.ShloMosaic.Adequacy
import Idealize.ShloMosaic.Init

noncomputable section

namespace Cert.Proof

open Idealize.ShloMosaic Idealize.ShloMosaic.TcCoe Idealize.SL.Sem

/-- The kernel at the word level runs and leaves its arguments unchanged. -/
theorem frame_k : Cert.frame_Kernel := fun m ρ _ => Cert.Kernel.Gen.frame m ρ

/-- The kernel on the extended reals runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- On the extended reals, from memories agreeing on q, k, v and the mask, the kernel's result array and the reference's
    are both the attention output of those arrays. -/
theorem algebraic : Cert.algebraic_KernelIdeal_ReferenceIdeal := by
  intro m ρ m' ρ' hpre hagree
  refine ⟨fun c => Cert.KernelIdeal.KV.Gk m c, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hv⟩ := Attn.real_of_pre _ _ _ _ (hpre c)
  rw [Cert.ReferenceIdeal.Read.val_main_v15_eq, Attn.ref_eq_G, (hagree c).1, (hagree c).2.1, (hagree c).2.2.1, (hagree c).2.2.2]
  exact (Cert.KernelIdeal.KV.Gk_eq_G m c hq hk hv).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
